-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S64 .f32) (main_arg7 : FVec F S64x10 .f32) (main_arg8 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x10 .f32 := Host.absf main_arg7
  let main_cst_8 : FVec F S_ .f32 := constant S_ .f32 0x7F800000#32
  let main_v25 : FVec F S64x10 .f32 := broadcastInDim S64x10 ![] bcast_S_S64x10 main_cst_8
  let main_v26 : IVec S64x10 1 := cmpf .olt main_v24 main_v25
  let main_c_9 : IVec S_ 1 := constantI S_ 1 1#1
  let main_v27 : IVec S_ 1 := (fun x v => Host.reduce IntOp.andi x v reducesTo_S64x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S100000x128 .f32) (main_arg1 : IVec S2x3200000 32) (main_arg2 : IVec S100000 32) (main_arg3 : FVec F S128x64 .f32) (main_arg4 : FVec F S64 .f32) (main_arg5 : FVec F S64x64 .f32) (main_arg6 : FVec F S64 .f32) (main_arg7 : FVec F S64x10 .f32) (main_arg8 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x128 : Shape := ⟨2, ![10000, 128]⟩
abbrev S10000x64 : Shape := ⟨2, ![10000, 64]⟩
abbrev S3300000x64 : Shape := ⟨2, ![3300000, 64]⟩
abbrev S1x64 : Shape := ⟨2, ![1, 64]⟩
abbrev S100000x1 : Shape := ⟨2, ![100000, 1]⟩
abbrev S10000x1 : Shape := ⟨2, ![10000, 1]⟩
abbrev S128 : Shape := ⟨1, ![128]⟩
abbrev S128x1 : Shape := ⟨2, ![128, 1]⟩
abbrev S1x10 : Shape := ⟨2, ![1, 10]⟩
abbrev S128x10 : Shape := ⟨2, ![128, 10]⟩

abbrev nBuf : Space → Nat
  | .hbm => 98
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x10, .f32⟩
  | .hbm, ⟨8, _⟩ => ⟨S10, .f32⟩
  | .hbm, ⟨9, _⟩ => ⟨S100000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S_, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x64, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x64, .f32⟩
  | .hbm, ⟨59, _⟩ => ⟨S3300000x1, .f32⟩
  | .hbm, ⟨60, _⟩ => ⟨S3300000x64, .f32⟩
  | .hbm, ⟨61, _⟩ => ⟨S3300000x64, .f32⟩
  | .hbm, ⟨62, _⟩ => ⟨S_, .f32⟩
  | .hbm, ⟨63, _⟩ => ⟨S100000x64, .f32⟩
  | .hbm, ⟨64, _⟩ => ⟨S3300000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x64, .f32⟩
  | .hbm, ⟨78, _⟩ => ⟨S3300000x1, .f32⟩
  | .hbm, ⟨79, _⟩ => ⟨S3300000x64, .f32⟩
  | .hbm, ⟨80, _⟩ => ⟨S3300000x64, .f32⟩
  | .hbm, ⟨81, _⟩ => ⟨S_, .f32⟩
  | .hbm, ⟨82, _⟩ => ⟨S100000x64, .f32⟩
  | .hbm, ⟨83, _⟩ => ⟨S3300000x1, .i32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S100000x1, .i32⟩
  | .hbm, ⟨88, _⟩ => ⟨S128x64, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S128, .f32⟩
  | .hbm, ⟨93, _⟩ => ⟨S100000x1, .i32⟩
  | .hbm, ⟨94, _⟩ => ⟨S128, .f32⟩
  | .hbm, ⟨95, _⟩ => ⟨S128x1, .f32⟩
  | .hbm, ⟨96, _⟩ => ⟨S1x10, .f32⟩
  | .hbm, ⟨97, _⟩ => ⟨S128x10, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x1, .i32⟩
  | .local _ .vmem, ⟨23, _⟩ => ⟨S10000x1, .i32⟩
  | .local _ .vmem, ⟨24, _⟩ => ⟨S128x64, .f32⟩
  | .local _ .vmem, ⟨25, _⟩ => ⟨S128x64, .f32⟩
  | .local _ .vmem, ⟨26, _⟩ => ⟨S128x1, .f32⟩
  | .local _ .vmem, ⟨27, _⟩ => ⟨S64x10, .f32⟩
  | .local _ .vmem, ⟨28, _⟩ => ⟨S1x10, .f32⟩
  | .local _ .vmem, ⟨29, _⟩ => ⟨S128x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_12 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc5_stg0_0 : Ref sig .tc := ⟨.vmem, 25, rfl⟩
abbrev cc5_stg1_0 : Ref sig .tc := ⟨.vmem, 26, rfl⟩
abbrev cc5_stg2_0 : Ref sig .tc := ⟨.vmem, 27, rfl⟩
abbrev cc5_stg3_0 : Ref sig .tc := ⟨.vmem, 28, rfl⟩
abbrev cc5_stg4_0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc5_sem0_0 : DmaSem sig := 25
abbrev cc5_sem1_0 : DmaSem sig := 26
abbrev cc5_sem2_0 : DmaSem sig := 27
abbrev cc5_sem3_0 : DmaSem sig := 28
abbrev cc5_sem4_0 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S128x64 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S128x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S64x10 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x10 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x10 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S100000_S100000x1 : S100000.ShapeCasts S100000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x128_d1_w32 : S10000x128.Iotas .tc 32 [1]
  broadcasts_S10000x1_S10000x128 : S10000x1.Broadcasts S10000x128
  natLt_1_32 : 1 < 32
  shapeCasts_S128x64_S128x64 : S128x64.ShapeCasts S128x64
  bcast_S_S128 : S_.BroadcastsInDim S128 (![] : Fin 0 → Fin S128.rank)
  bcast_S100000_S100000x1_0 : S100000.BroadcastsInDim S100000x1 (![0] : Fin 1 → Fin S100000x1.rank)
  shapeCasts_S128_S128x1 : S128.ShapeCasts S128x1
  shapeCasts_S10_S1x10 : S10.ShapeCasts S1x10
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x64 : S128x1.Broadcasts S128x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  reduces_S128x10_S128 : S128x10.Reduces [1] S128
  broadcasts_S128x1_S128x10 : S128x1.Broadcasts S128x10
  inb_S128x10_S128x10_0_0 : ∀ a, (![0, 0] : Fin 2 → Nat) a + S128x10.size a ≤ S128x10.size a
  h_S128x10 : 0 < S128x10.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x64_S10000x64_1_0_0_1_n_n_wf : DotDims.WF S10000x128 S128x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x64_S10000x64_1_0_0_1_n_n_wf : DotDims.WF S10000x64 S64x64 S10000x64 [1] [0] [0] [1] [] []
  dot_S10000x128_S10000x64_S128x64_0_0_1_1_n_n_wf : DotDims.WF S10000x128 S10000x64 S128x64 [0] [0] [1] [1] [] []
  scatter_S128_S100000x1_S100000_n_0_0_1_wf : ScatterDims.WF S128 S100000x1 S100000 [] [0] [0] 1
  dot_S128x64_S64x10_S128x10_1_0_0_1_n_n_wf : DotDims.WF S128x64 S64x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S100000x1.size a
  hwx4_1 : ∀ i : grid4.Coords, EltTy.bits .i32 = 32 ∨ (Rect.block (s := S100000x1) S10000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x64.size a ≤ S128x64.size a
  hwx4_2 : ∀ i : grid4.Coords, EltTy.bits .f32 = 32 ∨ (Rect.block (s := S128x64) S128x64.size (cc4_transform_2 i) (hinb4_2 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S128x64.size a ≤ S128x64.size a
  hwx5_0 : ∀ i : grid5.Coords, EltTy.bits .f32 = 32 ∨ (Rect.block (s := S128x64) S128x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x1.size a ≤ S128x1.size a
  hwx5_1 : ∀ i : grid5.Coords, EltTy.bits .f32 = 32 ∨ (Rect.block (s := S128x1) S128x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x10.size a ≤ S64x10.size a
  hwx5_2 : ∀ i : grid5.Coords, EltTy.bits .f32 = 32 ∨ (Rect.block (s := S64x10) S64x10.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x10.size a ≤ S1x10.size a
  hwx5_3 : ∀ i : grid5.Coords, EltTy.bits .f32 = 32 ∨ (Rect.block (s := S1x10) S1x10.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x10.size a ≤ S128x10.size a
  hwx5_4 : ∀ i : grid5.Coords, EltTy.bits .f32 = 32 ∨ (Rect.block (s := S128x10) S128x10.size (cc5_transform_4 i) (hinb5_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x128_S10000x64_S128x64_0_0_1_1_n_n : DotDims S10000x128 S10000x64 S128x64 where
  lhsContracting := [0]
  rhsContracting := [0]
  lhsNonContracting := [1]
  rhsNonContracting := [1]
  lhsBatch := []
  rhsBatch := []
  wf := dot_S10000x128_S10000x64_S128x64_0_0_1_1_n_n_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v63) S128x64.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v63) S128x64.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v68) S128x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg7) S64x10.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v69) S1x10.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v70) S128x10.size cc5_transform_4 reads5_4 true true 1 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x1 : Shape := ⟨2, ![100000, 1]⟩
abbrev S128 : Shape := ⟨1, ![128]⟩
abbrev S128x1 : Shape := ⟨2, ![128, 1]⟩
abbrev S128x10 : Shape := ⟨2, ![128, 10]⟩
abbrev S1x10 : Shape := ⟨2, ![1, 10]⟩

abbrev nBuf : Space → Nat
  | .hbm => 162
  | .vmem => 0
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x10, .f32⟩
  | 8 => ⟨S10, .f32⟩
  | 9 => ⟨S100000, .i32⟩
  | 10 => ⟨S1x3200000, .i32⟩
  | 11 => ⟨S3200000, .i32⟩
  | 12 => ⟨S3300000, .i32⟩
  | 13 => ⟨S1x3200000, .i32⟩
  | 14 => ⟨S3200000, .i32⟩
  | 15 => ⟨S3300000, .i32⟩
  | 16 => ⟨S_, .f32⟩
  | 17 => ⟨S3300000, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S100000x64, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000x64, .f32⟩
  | 59 => ⟨S3300000x1, .f32⟩
  | 60 => ⟨S3300000x64, .f32⟩
  | 61 => ⟨S3300000x64, .f32⟩
  | 62 => ⟨S_, .f32⟩
  | 63 => ⟨S100000x64, .f32⟩
  | 64 => ⟨S3300000x1, .i32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S_, .f32⟩
  | 73 => ⟨S3300000, .f32⟩
  | 74 => ⟨S_, .f32⟩
  | 75 => ⟨S100000, .f32⟩
  | 76 => ⟨S3300000x1, .i32⟩
  | 77 => ⟨S100000, .f32⟩
  | 78 => ⟨S_, .f32⟩
  | 79 => ⟨S100000, .f32⟩
  | 80 => ⟨S100000, .i1⟩
  | 81 => ⟨S100000, .f32⟩
  | 82 => ⟨S_, .f32⟩
  | 83 => ⟨S_, .f32⟩
  | 84 => ⟨S100000, .f32⟩
  | 85 => ⟨S100000, .f32⟩
  | 86 => ⟨S_, .i32⟩
  | 87 => ⟨S3300000, .i32⟩
  | 88 => ⟨S3300000, .i1⟩
  | 89 => ⟨S_, .i32⟩
  | 90 => ⟨S3300000, .i32⟩
  | 91 => ⟨S3300000, .i32⟩
  | 92 => ⟨S3300000, .i32⟩
  | 93 => ⟨S3300000x1, .i32⟩
  | 94 => ⟨S3300000, .f32⟩
  | 95 => ⟨S_, .i32⟩
  | 96 => ⟨S3300000, .i32⟩
  | 97 => ⟨S3300000, .i1⟩
  | 98 => ⟨S_, .i32⟩
  | 99 => ⟨S3300000, .i32⟩
  | 100 => ⟨S3300000, .i32⟩
  | 101 => ⟨S3300000, .i32⟩
  | 102 => ⟨S3300000x1, .i32⟩
  | 103 => ⟨S3300000, .f32⟩
  | 104 => ⟨S3300000, .f32⟩
  | 105 => ⟨S100000x64, .f32⟩
  | 106 => ⟨S_, .i32⟩
  | 107 => ⟨S3300000, .i32⟩
  | 108 => ⟨S3300000, .i1⟩
  | 109 => ⟨S_, .i32⟩
  | 110 => ⟨S3300000, .i32⟩
  | 111 => ⟨S3300000, .i32⟩
  | 112 => ⟨S3300000, .i32⟩
  | 113 => ⟨S3300000x1, .i32⟩
  | 114 => ⟨S3300000x64, .f32⟩
  | 115 => ⟨S3300000x1, .f32⟩
  | 116 => ⟨S3300000x64, .f32⟩
  | 117 => ⟨S3300000x64, .f32⟩
  | 118 => ⟨S_, .f32⟩
  | 119 => ⟨S100000x64, .f32⟩
  | 120 => ⟨S3300000x1, .i32⟩
  | 121 => ⟨S100000x64, .f32⟩
  | 122 => ⟨S1x64, .f32⟩
  | 123 => ⟨S100000x64, .f32⟩
  | 124 => ⟨S100000x64, .f32⟩
  | 125 => ⟨S_, .f32⟩
  | 126 => ⟨S100000x64, .f32⟩
  | 127 => ⟨S100000x64, .f32⟩
  | _ => ⟨S100000x128, .f32⟩

abbrev hbmTy0_1 (i : Nat) : BufTy := match i % 128 with
  | 0 => ⟨S_, .f32⟩
  | 1 => ⟨S128x64, .f32⟩
  | 2 => ⟨S100000x1, .i32⟩
  | 3 => ⟨S128x64, .f32⟩
  | 4 => ⟨S_, .f32⟩
  | 5 => ⟨S100000, .f32⟩
  | 6 => ⟨S_, .f32⟩
  | 7 => ⟨S128, .f32⟩
  | 8 => ⟨S100000x1, .i32⟩
  | 9 => ⟨S128, .f32⟩
  | 10 => ⟨S_, .f32⟩
  | 11 => ⟨S128, .f32⟩
  | 12 => ⟨S128, .f32⟩
  | 13 => ⟨S128x1, .f32⟩
  | 14 => ⟨S128x64, .f32⟩
  | 15 => ⟨S128x64, .f32⟩
  | 16 => ⟨S128x10, .f32⟩
  | 17 => ⟨S1x10, .f32⟩
  | 18 => ⟨S128x10, .f32⟩
  | 19 => ⟨S128x10, .f32⟩
  | 20 => ⟨S_, .f32⟩
  | 21 => ⟨S128, .f32⟩
  | 22 => ⟨S_, .f32⟩
  | 23 => ⟨S128, .f32⟩
  | 24 => ⟨S128, .f32⟩
  | 25 => ⟨S128x1, .f32⟩
  | 26 => ⟨S128x10, .f32⟩
  | 27 => ⟨S128x10, .f32⟩
  | 28 => ⟨S128x10, .f32⟩
  | 29 => ⟨S_, .f32⟩
  | 30 => ⟨S128, .f32⟩
  | 31 => ⟨S128x1, .f32⟩
  | 32 => ⟨S128x10, .f32⟩
  | 33 => ⟨S128x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_cst_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v55 : Ref sig .tc := ⟨.hbm, 85, rfl⟩
abbrev main_c_13 : Ref sig .tc := ⟨.hbm, 86, rfl⟩
abbrev main_v56 : Ref sig .tc := ⟨.hbm, 87, rfl⟩
abbrev main_v57 : Ref sig .tc := ⟨.hbm, 88, rfl⟩
abbrev main_c_14 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_c_15 : Ref sig .tc := ⟨.hbm, 95, rfl⟩
abbrev main_v63 : Ref sig .tc := ⟨.hbm, 96, rfl⟩
abbrev main_v64 : Ref sig .tc := ⟨.hbm, 97, rfl⟩
abbrev main_c_16 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_17 : Ref sig .tc := ⟨.hbm, 106, rfl⟩
abbrev main_v72 : Ref sig .tc := ⟨.hbm, 107, rfl⟩
abbrev main_v73 : Ref sig .tc := ⟨.hbm, 108, rfl⟩
abbrev main_c_18 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_19 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_call3_cst : Ref sig .tc := ⟨.hbm, 125, rfl⟩
abbrev main_call3_v0 : Ref sig .tc := ⟨.hbm, 126, rfl⟩
abbrev main_v88 : Ref sig .tc := ⟨.hbm, 127, rfl⟩
abbrev main_cst_20 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_21 : Ref sig .tc := ⟨.hbm, 132, rfl⟩
abbrev main_v92 : Ref sig .tc := ⟨.hbm, 133, rfl⟩
abbrev main_cst_22 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_23 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_cst_24 : Ref sig .tc := ⟨.hbm, 148, rfl⟩
abbrev main_v105 : Ref sig .tc := ⟨.hbm, 149, rfl⟩
abbrev main_cst_25 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_cst_26 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S128x64 : S_.BroadcastsInDim S128x64 (![] : Fin 0 → Fin S128x64.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  reducesTo_S128x10_S128_d1 : S128x10.ReducesTo [1] S128
  h_S_ : 0 < S_.numel
  bcast_S128x1_S128x10_0_1 : S128x1.BroadcastsInDim S128x10 (![0, 1] : Fin 2 → Fin S128x10.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x10_S128x10_1_0_0_1_n_n_wf : DotDims.WF S128x64 S64x10 S128x10 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

class Facts : Prop extends Facts₀ where

variable [Facts]
-- ==== Proof.Region0.lean ====
import proofs.«409668_j5222680232280_2_alg».proof.Proof.Gen.KernelIdeal.Frame
import proofs.«409668_j5222680232280_2_alg».proof.Proof.RefRead
import Idealize.ShloMosaic.Lib.ValueIdx
import Idealize.ShloMosaic.Lib.Pipeline.Value
import Idealize.ShloMosaic.PureOps.Ideal.Laws

set_option maxRecDepth 16384

noncomputable section

namespace Cert.Bridge.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.ReferenceIdeal.Read (val_main_v3 val_main_v6 val_main_v29 val_main_v30 val_main_v43 val_main_v47 val_main_v71 val_main_v84 val_main_v88 val_main_v91 val_main_v95 val_main_v115)

/-- The contents of a reference-side array of the given shape, at the ideal instance. -/
abbrev RArr (s : Shape) : Type := s.Idx → EReal
/-- The contents of a reference-side index array of the given shape. -/
abbrev RIdx (s : Shape) : Type := s.Idx → BitVec 32

/-- The TensorCore's buffer contents when a region is entered. -/
abbrev Entry : Type := (c : Dev nD) → (b : Ref sig .tc) → Buf (Elt Ideal) ((c : Thread nD τ).loc b)

/-! ## One block's product, entry by entry -/

/-- The left operand's entry that term `k` of the block product's entry `j` reads: row `j 0`, column `k`. -/
abbrev blkL (j : S10000x64.Idx) (k : Fin 128) : S10000x128.Idx := fun a => match a with
  | ⟨0, _⟩ => ⟨(j 0).val, (j 0).isLt⟩
  | ⟨1, _⟩ => ⟨k.val, k.isLt⟩
/-- The right operand's entry that term `k` of the block product's entry `j` reads: row `k`, column `j 1`. -/
abbrev blkR (j : S10000x64.Idx) (k : Fin 128) : S128x64.Idx := fun a => match a with
  | ⟨0, _⟩ => ⟨k.val, k.isLt⟩
  | ⟨1, _⟩ => ⟨(j 1).val, (j 1).isLt⟩

theorem blk_lhs_0 (j : S10000x64.Idx) (q : dot_S10000x128_S128x64_S10000x64_1_0_0_1_n_n.contr.Idx) :
    (dot_S10000x128_S128x64_S10000x64_1_0_0_1_n_n.lhsIdx j q 0).val = (j 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem blk_lhs_1 (j : S10000x64.Idx) (q : dot_S10000x128_S128x64_S10000x64_1_0_0_1_n_n.contr.Idx) :
    (dot_S10000x128_S128x64_S10000x64_1_0_0_1_n_n.lhsIdx j q 1).val = (q ⟨0, by decide⟩).val :=
  dot_S10000x128_S128x64_S10000x64_1_0_0_1_n_n.lhsIdx_val_of_single rfl j q
theorem blk_rhs_0 (j : S10000x64.Idx) (q : dot_S10000x128_S128x64_S10000x64_1_0_0_1_n_n.contr.Idx) :
    (dot_S10000x128_S128x64_S10000x64_1_0_0_1_n_n.rhsIdx j q 0).val = (q ⟨0, by decide⟩).val :=
  dot_S10000x128_S128x64_S10000x64_1_0_0_1_n_n.rhsIdx_val_of_single rfl j q
theorem blk_rhs_1 (j : S10000x64.Idx) (q : dot_S10000x128_S128x64_S10000x64_1_0_0_1_n_n.contr.Idx) :
    (dot_S10000x128_S128x64_S10000x64_1_0_0_1_n_n.rhsIdx j q 1).val = (j 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Entry `j` of the block the body stores is the sum over the 128 inner positions of the loaded row block's entry
    times the loaded weight's entry: the change of float format is the identity and the accumulator is zero. -/
theorem pay_apply (x : Vec Ideal S10000x128 .f32) (w : Vec Ideal S128x64 .f32) (j : S10000x64.Idx) :
    k0_pay1 x w j = ∑ k : Fin 128, x (blkL j k) * w (blkR j k) := by
  unfold k0_pay1
  refine (Ideal.matmul_constant_zero_apply dot_S10000x128_S128x64_S10000x64_1_0_0_1_n_n none _ _ j).trans ?_
  rw [← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx j ((ValueIdx.contrEquiv1 dot_S10000x128_S128x64_S10000x64_1_0_0_1_n_n 128 rfl rfl).symm k) = blkL j k := funext fun a => Fin.ext (by
    match a with
    | ⟨0, _⟩ => exact blk_lhs_0 _ _
    | ⟨1, _⟩ => exact (blk_lhs_1 _ _).trans hk)
  have er : dot_S10000x128_S128x64_S10000x64_1_0_0_1_n_n.rhsIdx j ((ValueIdx.contrEquiv1 dot_S10000x128_S128x64_S10000x64_1_0_0_1_n_n 128 rfl rfl).symm k) = blkR j k := funext fun a => Fin.ext (by
    match a with
    | ⟨0, _⟩ => exact (blk_rhs_0 _ _).trans hk
    | ⟨1, _⟩ => exact blk_rhs_1 _ _)
  rw [truncf_apply, truncf_apply, el, er]

/-! ## One block against the whole product -/

/-- If the loaded row block holds rows of `X` and the loaded weight holds `W`, where entry `i` of the whole product
    reads them, then entry `y` of the stored block is entry `i` of the product of `X` and `W`: the two sums
    agree term by term. -/
theorem prod_entry (x : Vec Ideal S10000x128 .f32) (w : Vec Ideal S128x64 .f32)
    (X : S100000x128.Idx → EReal) (W : S128x64.Idx → EReal) (y : S10000x64.Idx) (i : S100000x64.Idx)
    (hx : ∀ k : Fin 128, x (blkL y k) = X (Cert.ReferenceIdeal.Read.lidx_main_v30 i k))
    (hw : ∀ k : Fin 128, w (blkR y k) = W (Cert.ReferenceIdeal.Read.ridx_main_v30 i k)) :
    k0_pay1 x w y = val_main_v30 (F := Ideal) X W i := by
  rw [pay_apply, Cert.ReferenceIdeal.Read.val_main_v30_apply]
  exact Finset.sum_congr rfl fun k _ => by rw [hx k, hw k]

/-! ## The windows' blocks as parts of the arrays -/

theorem hz : (![0, 0] : Fin 2 → Nat) = fun _ => 0 := funext fun a => by fin_cases a <;> rfl

/-- The printed index maps over the ten points: the row blocks of the features and of the product move with the
    point, the weight's one block stays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `y` of the feature block at point `t` is the features' entry in row `10000 t + y 0`, same column. -/
theorem xblk_apply (V : Entry) (c : Dev nD) (t : Fin cfg0.N) (y : S10000x128.Idx) (i : S100000x128.Idx)
    (h0 : (i 0).val = t.val * 10000 + (y 0).val) (h1 : (i 1).val = (y 1).val) :
    (iblk0 V c 0 t : Vec Ideal S10000x128 .f32) y = (V c main_arg0 : S100000x128.Idx → EReal) i := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 10000 + 1 * (y 0).val = (i 0).val; rw [e0, h0]; omega
  | ⟨1, _⟩ => show win0_0.index t 1 * 128 + 1 * (y 1).val = (i 1).val; rw [e1, h1]; omega

/-- The weight's block at every point is the whole weight matrix. -/
theorem wblk_apply (V : Entry) (c : Dev nD) (t : Fin cfg0.N) (y : S128x64.Idx) (i : S128x64.Idx)
    (h0 : (i 0).val = (y 0).val) (h1 : (i 1).val = (y 1).val) :
    (iblk0 V c 1 t : Vec Ideal S128x64 .f32) y = (V c main_arg3 : S128x64.Idx → EReal) i := by
  obtain ⟨-, -, e0, e1, -⟩ := idx_facts t
  unfold iblk0
  rw [View.read_apply]
  show V c main_arg3 _ = V c main_arg3 _
  congr 1
  funext a
  apply Fin.ext
  match a with
  | ⟨0, _⟩ => show win0_1.index t 0 * 128 + 1 * (y 0).val = (i 0).val; rw [e0, h0]; omega
  | ⟨1, _⟩ => show win0_1.index t 1 * 64 + 1 * (y 1).val = (i 1).val; rw [e1, h1]; omega

/-- What point `t` writes back is block `t` of the product of the two arrays as the region finds them. -/
theorem flushed_eq (V : Entry) (c : Dev nD) (t : Fin cfg0.N) :
    (dat0 V c).flushed 2 t
      = ((cfg0.win 2).blk t).view.read (Elt Ideal) (val_main_v30 (F := Ideal) (V c main_arg0) (V c main_arg3)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨-, -, -, -, e0, e1⟩ := idx_facts t
  funext y
  rw [View.read_apply]
  show k0_pay1 (iblk0 V c 0 t) (iblk0 V c 1 t) y
    = val_main_v30 (F := Ideal) (V c main_arg0) (V c main_arg3) (((cfg0.win 2).blk t).view.emb y)
  have r0 : ((((cfg0.win 2).blk t).view.emb y) 0).val = t.val * 10000 + (y 0).val := by
    show win0_2.index t 0 * 10000 + 1 * (y 0).val = _; rw [e0]; omega
  have r1 : ((((cfg0.win 2).blk t).view.emb y) 1).val = (y 1).val := by
    show win0_2.index t 1 * 64 + 1 * (y 1).val = _; rw [e1]; omega
  exact prod_entry _ _ _ _ y _ (fun k => xblk_apply V c t _ _ r0 rfl) (fun k => wblk_apply V c t _ _ rfl r1)

/-! ## The blocks laid end to end -/

/-- An index of the product array is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Row `r` of the product lies in the block of point `r / 10000`, and every point writes its block back. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := N_0
  obtain ⟨t, ht⟩ : ∃ t : Fin cfg0.N, t.val = (i 0).val / 10000 :=
    ⟨⟨(i 0).val / 10000, by show (i 0).val / 10000 < grid0.N; rw [hN]; omega⟩, rfl⟩
  obtain ⟨-, -, -, -, e0, e1⟩ := idx_facts t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; rw [e0, ht]; omega
  | ⟨1, _⟩ => show win0_2.index t (1 : Fin 2) * 64 ≤ (i 1).val ∧ (i 1).val < win0_2.index t (1 : Fin 2) * 64 + 64; rw [e1]; omega

/-- The first feature product: the array the first region leaves is the reference's product of the node features
    with the first weight matrix, whatever the region finds in its two input arrays. -/
theorem region0 (V : Entry) (c : Dev nD) :
    (dat0 V c).arrAt 2 cfg0.N = val_main_v30 (F := Ideal) (V c main_arg0) (V c main_arg3) :=
  (dat0 V c).arrAt_eq_of_cover 2 (val_main_v30 (F := Ideal) (V c main_arg0) (V c main_arg3))
    (fun t _ => flushed_eq V c t) cover

end Cert.Bridge.Region0

end
-- ==== Proof.Region1.lean ====
import proofs.«409668_j5222680232280_2_alg».proof.Proof.Gen.KernelIdeal.Frame
import proofs.«409668_j5222680232280_2_alg».proof.Proof.RefRead
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Bridge.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.ReferenceIdeal.Read (val_main_v3 val_main_v6 val_main_v29 val_main_v30 val_main_v43 val_main_v47 val_main_v71 val_main_v84 val_main_v88 val_main_v91 val_main_v95 val_main_v115)

/-- The contents of a reference-side array of the given shape, at the ideal instance. -/
abbrev RArr (s : Shape) : Type := s.Idx → EReal
/-- The contents of a reference-side index array of the given shape. -/
abbrev RIdx (s : Shape) : Type := s.Idx → BitVec 32

/-- The TensorCore's buffer contents when a region is entered. -/
abbrev Entry : Type := (c : Dev nD) → (b : Ref sig .tc) → Buf (Elt Ideal) ((c : Thread nD τ).loc b)

/-- The two zero offsets of a whole-buffer access, as a function of the axis. -/
theorem zero_off : (![0, 0] : Fin 2 → Nat) = fun _ => 0 := funext fun a => by
  match a with
  | ⟨0, _⟩ => rfl
  | ⟨1, _⟩ => rfl

/-- The three index maps over the ten points: the aggregate's and the result's block index is (t, 0), the bias's (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The payload at (p, q): the aggregate's entry plus the bias row's entry of column q, rectified at the zero word. -/
theorem pay_apply {F : FTy → Type} [FloatOps F] (x : Vec F S10000x64 .f32) (b : Vec F S1x64 .f32) (p : Fin 10000) (q : Fin 64) :
    k1_pay1 x b (ix2 p q)
      = FloatOps.maximumf (FloatOps.addf (x (ix2 p q)) (b (ix2 (0 : Fin 1) q))) (FloatOps.ofBits .f32 0x00000000#32) := by
  unfold k1_pay1
  show FloatOps.maximumf (FloatOps.addf (shapeCast S10000x64 x _ (ix2 p q)) (broadcastTo S10000x64 (shapeCast S1x64 b _) _ (ix2 p q))) _ = _
  rw [shapeCast_self, shapeCast_self, broadcastTo_1b_ab_apply]
  rfl

/-- The aggregate's block at point t reads, at (p, q) inside it, the array's entry (10000 t + p, q). -/
theorem agg_blk (V : Entry) (c : Dev nD) (t : Fin cfg1.N) (p : Fin 10000) (q : Fin 64) (k : S100000x64.Idx)
    (hk0 : (k 0).val = 10000 * t.val + p.val) (hk1 : (k 1).val = q.val) :
    (iblk1 V c 0 t : Vec Ideal S10000x64 .f32) (ix2 p q) = (V c main_v43 : S100000x64.Idx → EReal) k := by
  obtain ⟨e0, e1, -⟩ := idx_facts t
  unfold iblk1
  rw [View.read_apply]
  show V c main_v43 _ = V c main_v43 _
  congr 1
  funext a
  apply Fin.ext
  match a with
  | ⟨0, _⟩ => show win1_0.index t (0 : Fin 2) * 10000 + 1 * p.val = (k 0).val; rw [e0, hk0]; omega
  | ⟨1, _⟩ => show win1_0.index t (1 : Fin 2) * 64 + 1 * q.val = (k 1).val; rw [e1, hk1]; omega

/-- The bias's block at every point is the whole one-row array: at (0, q) it reads the array's entry (0, q). -/
theorem bias_blk (V : Entry) (c : Dev nD) (t : Fin cfg1.N) (q : Fin 64) :
    (iblk1 V c 1 t : Vec Ideal S1x64 .f32) (ix2 (0 : Fin 1) q) = (V c main_v44 : S1x64.Idx → EReal) (ix2 (0 : Fin 1) q) := by
  obtain ⟨-, -, e2, e3, -⟩ := idx_facts t
  unfold iblk1
  rw [View.read_apply]
  show V c main_v44 _ = V c main_v44 _
  congr 1
  funext a
  apply Fin.ext
  match a with
  | ⟨0, _⟩ => show win1_1.index t (0 : Fin 2) * 1 + 1 * 0 = 0; rw [e2]
  | ⟨1, _⟩ => show win1_1.index t (1 : Fin 2) * 64 + 1 * q.val = q.val; rw [e3]; omega

/-- The reference's first hidden layer at an index of column q: the first aggregate there plus the bias's entry q, rectified at the zero word. -/
theorem ref_apply (a0 : RArr ⟨2, ![100000, 128]⟩) (a1 : RIdx ⟨2, ![2, 3200000]⟩) (a3 : RArr ⟨2, ![128, 64]⟩) (a4 : RArr ⟨1, ![64]⟩)
    (i : Cert.ReferenceIdeal.S100000x64.Idx) (q : Fin 64) (hq : (i 1).val = q.val) :
    val_main_v47 (F := Ideal) a0 a1 a3 a4 i
      = FloatOps.maximumf (F := Ideal) (φ := .f32) (FloatOps.addf (F := Ideal) (φ := .f32) (val_main_v43 (F := Ideal) a0 a1 a3 i) (a4 (ix1 q))) (FloatOps.ofBits .f32 0x00000000#32) := by
  rw [Cert.ReferenceIdeal.Read.val_main_v47_apply, Cert.ReferenceIdeal.Read.val_main_v46_apply,
    Cert.ReferenceIdeal.Read.val_main_v45_apply, Cert.ReferenceIdeal.Read.val_main_v44_apply,
    Cert.ReferenceIdeal.Read.val_main_call1_v0_apply, Cert.ReferenceIdeal.Read.val_main_call1_cst_apply]
  have hi : Cert.ReferenceIdeal.Read.idx_main_v44 (Cert.ReferenceIdeal.Read.idx_main_v45 i) = ix1 q := by
    funext a
    match a with
    | ⟨0, _⟩ => exact Fin.ext hq
  rw [hi]

/-- What point t writes back is block t of any whole-array function G that is, entry by entry, the rectified sum of the
    aggregate array's entry and the bias row's entry of that column. -/
theorem flushed_of (V : Entry) (c : Dev nD) (A G : S100000x64.Idx → EReal) (b : Fin 64 → EReal)
    (hagg : (V c main_v43 : S100000x64.Idx → EReal) = A)
    (hb : ∀ q : Fin 64, (V c main_v44 : S1x64.Idx → EReal) (ix2 (0 : Fin 1) q) = b q)
    (hG : ∀ (i : S100000x64.Idx) (q : Fin 64), (i 1).val = q.val →
      G i = FloatOps.maximumf (F := Ideal) (φ := .f32) (FloatOps.addf (F := Ideal) (φ := .f32) (A i) (b q)) (FloatOps.ofBits .f32 0x00000000#32))
    (t : Fin cfg1.N) :
    (dat1 V c).flushed 2 t = ((cfg1.win 2).blk t).view.read (Elt Ideal) G := by
  show (cfg1.win 2).cut (grid1.coords t) ((dat1 V c).after 2 t) = _
  rw [after1_2]
  unfold out1_2
  rw [View.canon_unit_zero zero_off]
  simp only [View.ld_unit_zero (S := S10000x64) zero_off, View.ld_unit_zero (S := S1x64) zero_off]
  funext y
  obtain ⟨p, q, rfl⟩ : ∃ (p : Fin 10000) (q : Fin 64), y = ix2 p q := ⟨y 0, y 1, eq_ix2 y⟩
  obtain ⟨-, -, -, -, e4, e5⟩ := idx_facts t
  show k1_pay1 (iblk1 V c 0 t) (iblk1 V c 1 t) (ix2 p q) = G (((cfg1.win 2).blk t).view.emb (ix2 p q))
  have hk0 : ((((cfg1.win 2).blk t).view.emb (ix2 p q) : S100000x64.Idx) 0).val = 10000 * t.val + p.val := by
    show win1_2.index t (0 : Fin 2) * 10000 + 1 * p.val = _; rw [e4]; omega
  have hk1 : ((((cfg1.win 2).blk t).view.emb (ix2 p q) : S100000x64.Idx) 1).val = q.val := by
    show win1_2.index t (1 : Fin 2) * 64 + 1 * q.val = _; rw [e5]; omega
  refine (pay_apply (iblk1 V c 0 t) (iblk1 V c 1 t) p q).trans ?_
  rw [agg_blk V c t p q _ hk0 hk1, bias_blk V c t q, hagg, hb q]
  exact (hG _ q hk1).symm

/-- An index of the result array is in point t's block exactly when, on each axis, its coordinate lies in the block's range. -/
theorem mem_blk (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v45).slice (win1_2.rect t)).set ↔ _
  rw [View.set_slice_whole, Rect.mem_set_unit]
  exact Iff.rfl

/-- The ten row blocks tile the result array: row r lies in the block of point r / 10000. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ : ∃ t : Fin cfg1.N, t.val = (i 0).val / 10000 :=
    ⟨⟨(i 0).val / 10000, lt_of_lt_of_eq (by omega) N_1.symm⟩, rfl⟩
  obtain ⟨-, -, -, -, e4, e5⟩ := idx_facts t
  refine ⟨t, flush1_2 t, ?_⟩
  rw [mem_blk]
  intro a
  match a with
  | ⟨0, _⟩ =>
    show win1_2.index t (0 : Fin 2) * 10000 ≤ (i 0).val ∧ (i 0).val < win1_2.index t (0 : Fin 2) * 10000 + 10000
    rw [e4, ht]; omega
  | ⟨1, _⟩ =>
    show win1_2.index t (1 : Fin 2) * 64 ≤ (i 1).val ∧ (i 1).val < win1_2.index t (1 : Fin 2) * 64 + 64
    rw [e5]; omega

/-- Bias and rectification after the first aggregation: if the region finds the reference's first aggregate in its
    input array and the first bias as a one-row matrix beside it, it leaves the reference's first hidden layer. -/
theorem region1 (V : Entry) (c : Dev nD) (a0 : RArr ⟨2, ![100000, 128]⟩) (a1 : RIdx ⟨2, ![2, 3200000]⟩) (a3 : RArr ⟨2, ![128, 64]⟩) (a4 : RArr ⟨1, ![64]⟩)
    (hagg : V c main_v43 = val_main_v43 (F := Ideal) a0 a1 a3)
    (hb : ∀ q : Fin 64, V c main_v44 (ix2 (0 : Fin 1) q) = a4 (ix1 q)) :
    (dat1 V c).arrAt 2 cfg1.N = val_main_v47 (F := Ideal) a0 a1 a3 a4 :=
  (dat1 V c).arrAt_eq_of_cover 2 (val_main_v47 (F := Ideal) a0 a1 a3 a4)
    (fun t _ => flushed_of V c (val_main_v43 (F := Ideal) a0 a1 a3) (val_main_v47 (F := Ideal) a0 a1 a3 a4) (fun q => a4 (ix1 q))
      hagg hb (fun i q hq => ref_apply a0 a1 a3 a4 i q hq) t)
    cover

end Cert.Bridge.Region1

end
-- ==== Proof.Region2.lean ====
import proofs.«409668_j5222680232280_2_alg».proof.Proof.Gen.KernelIdeal.Frame
import proofs.«409668_j5222680232280_2_alg».proof.Proof.RefRead
import Idealize.ShloMosaic.Lib.ValueIdx
import Idealize.ShloMosaic.Lib.Pipeline.Value
import Idealize.ShloMosaic.PureOps.Ideal.Laws

set_option maxRecDepth 16384

noncomputable section

namespace Cert.Bridge.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.ReferenceIdeal.Read (val_main_v3 val_main_v6 val_main_v29 val_main_v30 val_main_v43 val_main_v47 val_main_v71 val_main_v84 val_main_v88 val_main_v91 val_main_v95 val_main_v115)

/-- The contents of a reference-side array of the given shape, at the ideal instance. -/
abbrev RArr (s : Shape) : Type := s.Idx → EReal
/-- The contents of a reference-side index array of the given shape. -/
abbrev RIdx (s : Shape) : Type := s.Idx → BitVec 32

/-- The TensorCore's buffer contents when a region is entered. -/
abbrev Entry : Type := (c : Dev nD) → (b : Ref sig .tc) → Buf (Elt Ideal) ((c : Thread nD τ).loc b)

/-! ## One block's product, entry by entry -/

/-- The left operand's entry that term `k` of the block product's entry `j` reads: row `j 0`, column `k`. -/
abbrev blkL (j : S10000x64.Idx) (k : Fin 64) : S10000x64.Idx := fun a => match a with
  | ⟨0, _⟩ => ⟨(j 0).val, (j 0).isLt⟩
  | ⟨1, _⟩ => ⟨k.val, k.isLt⟩
/-- The right operand's entry that term `k` of the block product's entry `j` reads: row `k`, column `j 1`. -/
abbrev blkR (j : S10000x64.Idx) (k : Fin 64) : S64x64.Idx := fun a => match a with
  | ⟨0, _⟩ => ⟨k.val, k.isLt⟩
  | ⟨1, _⟩ => ⟨(j 1).val, (j 1).isLt⟩

theorem blk_lhs_0 (j : S10000x64.Idx) (q : dot_S10000x64_S64x64_S10000x64_1_0_0_1_n_n.contr.Idx) :
    (dot_S10000x64_S64x64_S10000x64_1_0_0_1_n_n.lhsIdx j q 0).val = (j 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem blk_lhs_1 (j : S10000x64.Idx) (q : dot_S10000x64_S64x64_S10000x64_1_0_0_1_n_n.contr.Idx) :
    (dot_S10000x64_S64x64_S10000x64_1_0_0_1_n_n.lhsIdx j q 1).val = (q ⟨0, by decide⟩).val :=
  dot_S10000x64_S64x64_S10000x64_1_0_0_1_n_n.lhsIdx_val_of_single rfl j q
theorem blk_rhs_0 (j : S10000x64.Idx) (q : dot_S10000x64_S64x64_S10000x64_1_0_0_1_n_n.contr.Idx) :
    (dot_S10000x64_S64x64_S10000x64_1_0_0_1_n_n.rhsIdx j q 0).val = (q ⟨0, by decide⟩).val :=
  dot_S10000x64_S64x64_S10000x64_1_0_0_1_n_n.rhsIdx_val_of_single rfl j q
theorem blk_rhs_1 (j : S10000x64.Idx) (q : dot_S10000x64_S64x64_S10000x64_1_0_0_1_n_n.contr.Idx) :
    (dot_S10000x64_S64x64_S10000x64_1_0_0_1_n_n.rhsIdx j q 1).val = (j 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Entry `j` of the block the body stores is the sum over the 64 inner positions of the loaded row block's entry
    times the loaded weight's entry: the cast to the same shape and the change of float format are the identity and
    the accumulator is zero. -/
theorem pay_apply (x : Vec Ideal S10000x64 .f32) (w : Vec Ideal S64x64 .f32) (j : S10000x64.Idx) :
    k2_pay1 x w j = ∑ k : Fin 64, x (blkL j k) * w (blkR j k) := by
  unfold k2_pay1
  refine (Ideal.matmul_constant_zero_apply dot_S10000x64_S64x64_S10000x64_1_0_0_1_n_n none _ _ j).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx j ((ValueIdx.contrEquiv1 dot_S10000x64_S64x64_S10000x64_1_0_0_1_n_n 64 rfl rfl).symm k) = blkL j k := funext fun a => Fin.ext (by
    match a with
    | ⟨0, _⟩ => exact blk_lhs_0 _ _
    | ⟨1, _⟩ => exact (blk_lhs_1 _ _).trans hk)
  have er : dot_S10000x64_S64x64_S10000x64_1_0_0_1_n_n.rhsIdx j ((ValueIdx.contrEquiv1 dot_S10000x64_S64x64_S10000x64_1_0_0_1_n_n 64 rfl rfl).symm k) = blkR j k := funext fun a => Fin.ext (by
    match a with
    | ⟨0, _⟩ => exact (blk_rhs_0 _ _).trans hk
    | ⟨1, _⟩ => exact blk_rhs_1 _ _)
  rw [truncf_apply, truncf_apply, shapeCast_self, el, er]

/-! ## The whole product, entry by entry -/

/-- The product of a 100000 x 64 array with a 64 x 64 array, whatever the two hold: the function of the two arrays
    that the region's result is compared with. -/
abbrev wholeProd (X : FVec Ideal S100000x64 .f32) (W : FVec Ideal S64x64 .f32) : FVec Ideal S100000x64 .f32 :=
  Host.dotGeneral (F := Ideal) Cert.ReferenceIdeal.dot_S100000x64_S64x64_S100000x64_1_0_0_1_n_n none X W

/-- Entry `i` of the whole product is the sum over the 64 inner positions of row `i 0` of the left array times
    column `i 1` of the right one. -/
theorem wholeProd_apply (X : FVec Ideal S100000x64 .f32) (W : FVec Ideal S64x64 .f32) (i : S100000x64.Idx) :
    wholeProd X W i = ∑ k : Fin 64, X (Cert.ReferenceIdeal.Read.lidx_main_v71 i k) * W (Cert.ReferenceIdeal.Read.ridx_main_v71 i k) := by
  show Host.dotGeneral (F := Ideal) Cert.ReferenceIdeal.dot_S100000x64_S64x64_S100000x64_1_0_0_1_n_n none X W i = _
  simp only [Host.dotGeneral]
  rw [Ideal.dotGeneral_apply, ← Equiv.sum_comp (ValueIdx.contrEquiv1 Cert.ReferenceIdeal.dot_S100000x64_S64x64_S100000x64_1_0_0_1_n_n 64 rfl rfl).symm]
  refine Finset.sum_congr rfl fun k _ => ?_
  have hk := ValueIdx.contrEquiv1_symm_val Cert.ReferenceIdeal.dot_S100000x64_S64x64_S100000x64_1_0_0_1_n_n 64 rfl rfl k
  have el : Cert.ReferenceIdeal.dot_S100000x64_S64x64_S100000x64_1_0_0_1_n_n.lhsIdx i ((ValueIdx.contrEquiv1 Cert.ReferenceIdeal.dot_S100000x64_S64x64_S100000x64_1_0_0_1_n_n 64 rfl rfl).symm k) = Cert.ReferenceIdeal.Read.lidx_main_v71 i k := funext fun a => Fin.ext (by
    match a with
    | ⟨0, _⟩ => exact Cert.ReferenceIdeal.Read.lhs_main_v71_0 _ _
    | ⟨1, _⟩ => exact (Cert.ReferenceIdeal.Read.lhs_main_v71_1 _ _).trans hk)
  have er : Cert.ReferenceIdeal.dot_S100000x64_S64x64_S100000x64_1_0_0_1_n_n.rhsIdx i ((ValueIdx.contrEquiv1 Cert.ReferenceIdeal.dot_S100000x64_S64x64_S100000x64_1_0_0_1_n_n 64 rfl rfl).symm k) = Cert.ReferenceIdeal.Read.ridx_main_v71 i k := funext fun a => Fin.ext (by
    match a with
    | ⟨0, _⟩ => exact (Cert.ReferenceIdeal.Read.rhs_main_v71_0 _ _).trans hk
    | ⟨1, _⟩ => exact Cert.ReferenceIdeal.Read.rhs_main_v71_1 _ _)
  rw [el, er]

/-! ## One block against the whole product -/

/-- If the loaded row block holds rows of `X` and the loaded weight holds `W`, where entry `i` of the whole product
    reads them, then entry `y` of the stored block is entry `i` of the product of `X` and `W`: the two sums
    agree term by term. -/
theorem prod_entry (x : Vec Ideal S10000x64 .f32) (w : Vec Ideal S64x64 .f32)
    (X : FVec Ideal S100000x64 .f32) (W : FVec Ideal S64x64 .f32) (y : S10000x64.Idx) (i : S100000x64.Idx)
    (hx : ∀ k : Fin 64, x (blkL y k) = X (Cert.ReferenceIdeal.Read.lidx_main_v71 i k))
    (hw : ∀ k : Fin 64, w (blkR y k) = W (Cert.ReferenceIdeal.Read.ridx_main_v71 i k)) :
    k2_pay1 x w y = wholeProd X W i := by
  rw [pay_apply, wholeProd_apply]
  exact Finset.sum_congr rfl fun k _ => by rw [hx k, hw k]

/-! ## The windows' blocks as parts of the arrays -/

theorem hz : (![0, 0] : Fin 2 → Nat) = fun _ => 0 := funext fun a => by fin_cases a <;> rfl

/-- The printed index maps over the ten points: the row blocks of the hidden layer and of the product move with the
    point, the weight's one block stays. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry `y` of the hidden layer's block at point `t` is the layer's entry in row `10000 t + y 0`, same column. -/
theorem xblk_apply (V : Entry) (c : Dev nD) (t : Fin cfg2.N) (y : S10000x64.Idx) (i : S100000x64.Idx)
    (h0 : (i 0).val = t.val * 10000 + (y 0).val) (h1 : (i 1).val = (y 1).val) :
    (iblk2 V c 0 t : Vec Ideal S10000x64 .f32) y = (V c main_v45 : S100000x64.Idx → EReal) i := by
  obtain ⟨e0, e1, -⟩ := idx_facts t
  unfold iblk2
  rw [View.read_apply]
  show V c main_v45 _ = V c main_v45 _
  congr 1
  funext a
  apply Fin.ext
  match a with
  | ⟨0, _⟩ => show win2_0.index t 0 * 10000 + 1 * (y 0).val = (i 0).val; rw [e0, h0]; omega
  | ⟨1, _⟩ => show win2_0.index t 1 * 64 + 1 * (y 1).val = (i 1).val; rw [e1, h1]; omega

/-- The weight's block at every point is the whole weight matrix. -/
theorem wblk_apply (V : Entry) (c : Dev nD) (t : Fin cfg2.N) (y : S64x64.Idx) (i : S64x64.Idx)
    (h0 : (i 0).val = (y 0).val) (h1 : (i 1).val = (y 1).val) :
    (iblk2 V c 1 t : Vec Ideal S64x64 .f32) y = (V c main_arg5 : S64x64.Idx → EReal) i := by
  obtain ⟨-, -, e0, e1, -⟩ := idx_facts t
  unfold iblk2
  rw [View.read_apply]
  show V c main_arg5 _ = V c main_arg5 _
  congr 1
  funext a
  apply Fin.ext
  match a with
  | ⟨0, _⟩ => show win2_1.index t 0 * 64 + 1 * (y 0).val = (i 0).val; rw [e0, h0]; omega
  | ⟨1, _⟩ => show win2_1.index t 1 * 64 + 1 * (y 1).val = (i 1).val; rw [e1, h1]; omega

/-- What point `t` writes back is block `t` of the product of the two arrays as the region finds them. -/
theorem flushed_eq (V : Entry) (c : Dev nD) (t : Fin cfg2.N) :
    (dat2 V c).flushed 2 t
      = ((cfg2.win 2).blk t).view.read (Elt Ideal) (wholeProd (V c main_v45) (V c main_arg5)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x64) hz]
  obtain ⟨-, -, -, -, e0, e1⟩ := idx_facts t
  funext y
  rw [View.read_apply]
  show k2_pay1 (iblk2 V c 0 t) (iblk2 V c 1 t) y
    = wholeProd (V c main_v45) (V c main_arg5) (((cfg2.win 2).blk t).view.emb y)
  have r0 : ((((cfg2.win 2).blk t).view.emb y) 0).val = t.val * 10000 + (y 0).val := by
    show win2_2.index t 0 * 10000 + 1 * (y 0).val = _; rw [e0]; omega
  have r1 : ((((cfg2.win 2).blk t).view.emb y) 1).val = (y 1).val := by
    show win2_2.index t 1 * 64 + 1 * (y 1).val = _; rw [e1]; omega
  exact prod_entry _ _ _ _ y _ (fun k => xblk_apply V c t _ _ r0 rfl) (fun k => wblk_apply V c t _ _ rfl r1)

/-! ## The blocks laid end to end -/

/-- An index of the product array is in point `t`'s block iff each coordinate is in the block's range on its axis. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v46).slice (win2_2.rect t)).set ↔ _
  rw [View.set_slice_whole, Rect.mem_set_unit]
  exact Iff.rfl

/-- Row `r` of the product lies in the block of point `r / 10000`, and every point writes its block back. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 10 := N_2
  obtain ⟨t, ht⟩ : ∃ t : Fin cfg2.N, t.val = (i 0).val / 10000 :=
    ⟨⟨(i 0).val / 10000, by show (i 0).val / 10000 < grid2.N; rw [hN]; omega⟩, rfl⟩
  obtain ⟨-, -, -, -, e0, e1⟩ := idx_facts t
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; rw [e0, ht]; omega
  | ⟨1, _⟩ => show win2_2.index t (1 : Fin 2) * 64 ≤ (i 1).val ∧ (i 1).val < win2_2.index t (1 : Fin 2) * 64 + 64; rw [e1]; omega

/-- The array the region leaves is the product of its two input arrays as it finds them, whatever they hold. -/
theorem region2_prod (V : Entry) (c : Dev nD) :
    (dat2 V c).arrAt 2 cfg2.N = wholeProd (V c main_v45) (V c main_arg5) :=
  (dat2 V c).arrAt_eq_of_cover 2 (wholeProd (V c main_v45) (V c main_arg5))
    (fun t _ => flushed_eq V c t) cover

/-- The second feature product: if the region finds the reference's first hidden layer in its input array and the
    second weight matrix beside it, it leaves the reference's product of the two. -/
theorem region2 (V : Entry) (c : Dev nD) (a0 : RArr ⟨2, ![100000, 128]⟩) (a1 : RIdx ⟨2, ![2, 3200000]⟩) (a3 : RArr ⟨2, ![128, 64]⟩) (a4 : RArr ⟨1, ![64]⟩) (a5 : RArr ⟨2, ![64, 64]⟩)
    (hh : V c main_v45 = val_main_v47 (F := Ideal) a0 a1 a3 a4)
    (hw : V c main_arg5 = a5) :
    (dat2 V c).arrAt 2 cfg2.N = val_main_v71 (F := Ideal) a0 a1 a3 a4 a5 := by
  rw [region2_prod, hh, hw]
  rfl

end Cert.Bridge.Region2

end
-- ==== Proof.FoldA.lean ====
import proofs.«409668_j5222680232280_2_alg».proof.Proof.Gen.KernelIdeal.Frame
import proofs.«409668_j5222680232280_2_alg».proof.Proof.RefRead
import Idealize.ShloMosaic.Lib.ValueIdx
import Idealize.ShloMosaic.Lib.Pipeline.Value
import Idealize.ShloMosaic.Lib.StableHlo.Run
import proofs.«409668_j5222680232280_2_alg».proof.Proof.Region0
import proofs.«409668_j5222680232280_2_alg».proof.Proof.Region1
import proofs.«409668_j5222680232280_2_alg».proof.Proof.Region2

set_option maxRecDepth 16384

noncomputable section

namespace Cert.Bridge.FoldA

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.ReferenceIdeal.Read (val_main_v3 val_main_v6 val_main_v29 val_main_v30 val_main_v43 val_main_v47 val_main_v71 val_main_v84 val_main_v88 val_main_v91 val_main_v95 val_main_v115)

/-- The contents of a reference-side array of the given shape, at the ideal instance. -/
abbrev RArr (s : Shape) : Type := s.Idx → EReal
/-- The contents of a reference-side index array of the given shape. -/
abbrev RIdx (s : Shape) : Type := s.Idx → BitVec 32

/-- The TensorCore's buffer contents when a region is entered. -/
abbrev Entry : Type := (c : Dev nD) → (b : Ref sig .tc) → Buf (Elt Ideal) ((c : Thread nD τ).loc b)

variable (m : (ℓ : Loc nD τ sig) → Buf (Elt Ideal) ℓ) (ρ : Dev nD → PrngReg) (c : Dev nD)

/-- The launch contents of the nine argument arrays on core `c`. -/
abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)
abbrev A7 := m ((c : Thread nD τ).loc main_arg7)
abbrev A8 := m ((c : Thread nD τ).loc main_arg8)

open Cert.ReferenceIdeal.Read (val_main_v10 val_main_v12 val_main_v13 val_main_v14 val_main_cst_2 val_main_v44)

/-! ## The host stretches, each read over an arbitrary valuation of the buffers it starts from -/

section Stretches

variable {F : FTy → Type} [FloatOps F] (V : Valuation τ sig (Elt F))

/-- The first stretch joins the first row of the edge array with the node numbers: the sources with self loops. -/
theorem s0_row : StableHlo.after (hostOps0 (F := F)) V (Proc.devRef .tc main_v3)
    = val_main_v3 (F := F) (V (Proc.devRef .tc main_arg1)) := by
  dsimp only [hostOps0]; after_results; rfl
/-- The same with the second row: the targets with self loops. -/
theorem s0_col : StableHlo.after (hostOps0 (F := F)) V (Proc.devRef .tc main_v6)
    = val_main_v6 (F := F) (V (Proc.devRef .tc main_arg1)) := by
  dsimp only [hostOps0]; after_results; rfl
/-- Whether a node's degree (the count of edges arriving at it) is positive. -/
theorem s0_pos : StableHlo.after (hostOps0 (F := F)) V (Proc.devRef .tc main_v12)
    = val_main_v12 (F := F) (V (Proc.devRef .tc main_arg1)) := by
  dsimp only [hostOps0]; after_results; rfl
/-- The inverse square root of a node's degree. -/
theorem s0_rsqrt : StableHlo.after (hostOps0 (F := F)) V (Proc.devRef .tc main_v13)
    = val_main_v13 (F := F) (V (Proc.devRef .tc main_arg1)) := by
  dsimp only [hostOps0]; after_results; rfl
/-- The zero that replaces the inverse square root of a zero degree. -/
theorem s0_zero : StableHlo.after (hostOps0 (F := F)) V (Proc.devRef .tc main_cst_2) = val_main_cst_2 (F := F) := by
  dsimp only [hostOps0]; after_results; rfl

end Stretches

section Stretches2

variable {F : FTy → Type} [FloatOps F] (V : Valuation τ sig (Elt F))
variable (x0 : (⟨S100000x128, .f32⟩ : BufTy).Contents (Elt F)) (x1 : (⟨S2x3200000, .i32⟩ : BufTy).Contents (Elt F))
  (x3 : (⟨S128x64, .f32⟩ : BufTy).Contents (Elt F))

/-- The second stretch chooses, node by node, the inverse square root of the degree where the degree is positive and
    zero elsewhere. -/
theorem s01_dinv (h12 : V (Proc.devRef .tc main_v12) = val_main_v12 (F := F) x1)
    (h13 : V (Proc.devRef .tc main_v13) = val_main_v13 (F := F) x1)
    (hz : V (Proc.devRef .tc main_cst_2) = val_main_cst_2 (F := F)) :
    StableHlo.after (hostOps0_1 (F := F)) V (Proc.devRef .tc main_v14) = val_main_v14 (F := F) x1 := by
  dsimp only [hostOps0_1]; after_results
  try simp only [StableHlo.TRef.ofBuf, StableHlo.TRef.toBuf, cast_eq]
  rw [h12, h13, hz]; rfl

/-- The third stretch gathers that factor at each edge's two ends (a negative node number wrapped around first) and
    multiplies the two: the weight of the edge. -/
theorem s02_norm (h3 : V (Proc.devRef .tc main_v3) = val_main_v3 (F := F) x1)
    (h6 : V (Proc.devRef .tc main_v6) = val_main_v6 (F := F) x1)
    (h14 : V (Proc.devRef .tc main_v14) = val_main_v14 (F := F) x1) :
    StableHlo.after (hostOps0_2 (F := F)) V (Proc.devRef .tc main_v29) = val_main_v29 (F := F) x1 := by
  dsimp only [hostOps0_2]; after_results_simp
  rw [h3, h6, h14]; rfl

/-- The stretch between the first two regions gathers the first feature product at each edge's source, weighs it,
    and adds it up at the edge's target. -/
theorem s1_agg (h30 : V (Proc.devRef .tc main_v30) = val_main_v30 (F := F) x0 x3)
    (h3 : V (Proc.devRef .tc main_v3) = val_main_v3 (F := F) x1)
    (h6 : V (Proc.devRef .tc main_v6) = val_main_v6 (F := F) x1)
    (h29 : V (Proc.devRef .tc main_v29) = val_main_v29 (F := F) x1) :
    StableHlo.after (hostOps1 (F := F)) V (Proc.devRef .tc main_v43) = val_main_v43 (F := F) x0 x1 x3 := by
  dsimp only [hostOps1]; after_results_simp
  rw [h30, h3, h6, h29]; rfl

/-- A vector of 64 entries recast as one row of 64: the row's entry in column `q` is the vector's entry `q`
    (both sit at position `q` of the row-major order). -/
theorem row_of_vec {α : Type} (x : (⟨1, ![64]⟩ : Shape).Idx → α) (h : (⟨1, ![64]⟩ : Shape).ShapeCasts ⟨2, ![1, 64]⟩)
    (q : Fin 64) : shapeCast ⟨2, ![1, 64]⟩ x h (ix2 (0 : Fin 1) q) = x (ix1 q) :=
  shapeCast_apply x h _ _ (by
    rw [Shape.rowMajor_val_two, Shape.rowMajor_val_one]
    show q.val = 0 * 64 + q.val
    omega)

/-- The same stretch lays the first bias out as one row: its entry in column `q` is the bias's entry `q`. -/
theorem s1_bias (q : Fin 64) :
    StableHlo.after (hostOps1 (F := F)) V (Proc.devRef .tc main_v44) (ix2 (0 : Fin 1) q)
      = V (Proc.devRef .tc main_arg4) (ix1 q) := by
  dsimp only [hostOps1]; after_results_simp
  exact row_of_vec (V (Proc.devRef .tc main_arg4)) shapeCasts_S64_S1x64 q

end Stretches2

/-! ## What the host stretches leave alone -/

/-- The buffers the four host stretches before the fourth region write, stretch by stretch. -/
abbrev wr0 : List (Ref sig .tc) := [main_v0, main_v1, main_v2, main_v3, main_v4, main_v5, main_v6, main_cst, main_v7,
  main_cst_0, main_v8, main_v9, main_v10, main_cst_1, main_v11, main_v12, main_v13, main_cst_2]
abbrev wr01 : List (Ref sig .tc) := [main_call0_v0, main_call0_v1, main_v14]
abbrev wr02 : List (Ref sig .tc) := [main_c, main_v15, main_v16, main_c_3, main_v17, main_v18, main_v19, main_v20,
  main_v21, main_c_4, main_v22, main_v23, main_c_5, main_v24, main_v25, main_v26, main_v27, main_v28, main_v29]
abbrev wr1 : List (Ref sig .tc) := [main_c_6, main_v31, main_v32, main_c_7, main_v33, main_v34, main_v35, main_v36,
  main_v37, main_v38, main_v39, main_v40, main_cst_8, main_v41, main_v42, main_v43, main_v44]

section Writes
variable {F : FTy → Type} [FloatOps F]

theorem wr0_sub : (hostOps0 : List (HloOp τ sig (Elt F))).Forall fun op =>
    op.writes ⊆ (wr0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem wr01_sub : (hostOps0_1 : List (HloOp τ sig (Elt F))).Forall fun op =>
    op.writes ⊆ (wr01.map (Proc.devRef (τ := τ) .tc)).toFinset := by
  simp only [hostOps0_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem wr02_sub : (hostOps0_2 : List (HloOp τ sig (Elt F))).Forall fun op =>
    op.writes ⊆ (wr02.map (Proc.devRef (τ := τ) .tc)).toFinset := by
  simp only [hostOps0_2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem wr1_sub : (hostOps1 : List (HloOp τ sig (Elt F))).Forall fun op =>
    op.writes ⊆ (wr1.map (Proc.devRef (τ := τ) .tc)).toFinset := by
  simp only [hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

end Writes

theorem keep0 (r : Ref sig .tc) (h : r ∉ wr0) :
    W1 m ρ c (Proc.devRef .tc r) = W0 m ρ c (Proc.devRef .tc r) :=
  StableHlo.after_of_writes_sub hostOps0 _ wr0_sub h
theorem keep01 (r : Ref sig .tc) (h : r ∉ wr01) :
    W2 m ρ c (Proc.devRef .tc r) = W1 m ρ c (Proc.devRef .tc r) :=
  StableHlo.after_of_writes_sub hostOps0_1 _ wr01_sub h
theorem keep02 (r : Ref sig .tc) (h : r ∉ wr02) :
    W3 m ρ c (Proc.devRef .tc r) = W2 m ρ c (Proc.devRef .tc r) :=
  StableHlo.after_of_writes_sub hostOps0_2 _ wr02_sub h
theorem keep1 (r : Ref sig .tc) (h : r ∉ wr1) :
    W5 m ρ c (Proc.devRef .tc r) = W4 m ρ c (Proc.devRef .tc r) :=
  StableHlo.after_of_writes_sub hostOps1 _ wr1_sub h

/-- A buffer none of the first three stretches writes enters the first region as launched. -/
theorem W3_launch (r : Ref sig .tc) (h0 : r ∉ wr0) (h01 : r ∉ wr01) (h02 : r ∉ wr02) :
    W3 m ρ c (Proc.devRef .tc r) = m ((c : Thread nD τ).loc r) :=
  (keep02 m ρ c r h02).trans ((keep01 m ρ c r h01).trans (keep0 m ρ c r h0))
/-- A buffer that moreover is no array of the first region and is not written between the first two leaves the
    second stretch between regions as launched. -/
theorem W5_launch (r : Ref sig .tc) (h0 : r ∉ wr0) (h01 : r ∉ wr01) (h02 : r ∉ wr02)
    (hr0 : ∀ w, Pipeline.arrRef spec0 w ≠ r) (h1 : r ∉ wr1) :
    W5 m ρ c (Proc.devRef .tc r) = m ((c : Thread nD τ).loc r) :=
  (keep1 m ρ c r h1).trans ((W4_of_ne m ρ c r hr0).trans (W3_launch m ρ c r h0 h01 h02))
/-- A buffer that is moreover no array of the second and third regions is as launched when the third ends. -/
theorem W7_launch (r : Ref sig .tc) (h0 : r ∉ wr0) (h01 : r ∉ wr01) (h02 : r ∉ wr02)
    (hr0 : ∀ w, Pipeline.arrRef spec0 w ≠ r) (h1 : r ∉ wr1) (hr1 : ∀ w, Pipeline.arrRef spec1 w ≠ r)
    (hr2 : ∀ w, Pipeline.arrRef spec2 w ≠ r) :
    W7 m ρ c (Proc.devRef .tc r) = m ((c : Thread nD τ).loc r) :=
  (W7_of_ne m ρ c r hr2).trans ((W6_of_ne m ρ c r hr1).trans (W5_launch m ρ c r h0 h01 h02 hr0 h1))
/-- A buffer the first three stretches have filled keeps those contents to the end of the third region when nothing
    later writes it. -/
theorem W7_of_W3 (r : Ref sig .tc) (hr0 : ∀ w, Pipeline.arrRef spec0 w ≠ r) (h1 : r ∉ wr1)
    (hr1 : ∀ w, Pipeline.arrRef spec1 w ≠ r) (hr2 : ∀ w, Pipeline.arrRef spec2 w ≠ r) :
    W7 m ρ c (Proc.devRef .tc r) = W3 m ρ c (Proc.devRef .tc r) :=
  (W7_of_ne m ρ c r hr2).trans ((W6_of_ne m ρ c r hr1).trans ((keep1 m ρ c r h1).trans (W4_of_ne m ρ c r hr0)))

/-! ## The fold, boundary by boundary -/

theorem W1_row : W1 m ρ c (Proc.devRef .tc main_v3) = val_main_v3 (F := Ideal) (A1 m c) := s0_row (W0 m ρ c)
theorem W1_col : W1 m ρ c (Proc.devRef .tc main_v6) = val_main_v6 (F := Ideal) (A1 m c) := s0_col (W0 m ρ c)
theorem W2_row : W2 m ρ c (Proc.devRef .tc main_v3) = val_main_v3 (F := Ideal) (A1 m c) :=
  (keep01 m ρ c main_v3 (by decide)).trans (W1_row m ρ c)
theorem W2_col : W2 m ρ c (Proc.devRef .tc main_v6) = val_main_v6 (F := Ideal) (A1 m c) :=
  (keep01 m ρ c main_v6 (by decide)).trans (W1_col m ρ c)
theorem W2_dinv : W2 m ρ c (Proc.devRef .tc main_v14) = val_main_v14 (F := Ideal) (A1 m c) :=
  s01_dinv (W1 m ρ c) (A1 m c) (s0_pos (W0 m ρ c)) (s0_rsqrt (W0 m ρ c)) (s0_zero (W0 m ρ c))
theorem W3_row : W3 m ρ c (Proc.devRef .tc main_v3) = val_main_v3 (F := Ideal) (A1 m c) :=
  (keep02 m ρ c main_v3 (by decide)).trans (W2_row m ρ c)
theorem W3_col : W3 m ρ c (Proc.devRef .tc main_v6) = val_main_v6 (F := Ideal) (A1 m c) :=
  (keep02 m ρ c main_v6 (by decide)).trans (W2_col m ρ c)
theorem W3_norm : W3 m ρ c (Proc.devRef .tc main_v29) = val_main_v29 (F := Ideal) (A1 m c) :=
  s02_norm (W2 m ρ c) (A1 m c) (W2_row m ρ c) (W2_col m ρ c) (W2_dinv m ρ c)

/-- The first region's product of the node features with the first weights. -/
theorem W4_xw : W4 m ρ c (Proc.devRef .tc main_v30) = val_main_v30 (F := Ideal) (A0 m c) (A3 m c) :=
  (W4_arr m ρ c 2).trans ((Region0.region0 (V3 m ρ) c).trans
    (congrArg₂ (val_main_v30 (F := Ideal)) (W3_launch m ρ c main_arg0 (by decide) (by decide) (by decide))
      (W3_launch m ρ c main_arg3 (by decide) (by decide) (by decide))))
theorem W4_row : W4 m ρ c (Proc.devRef .tc main_v3) = val_main_v3 (F := Ideal) (A1 m c) :=
  (W4_of_ne m ρ c main_v3 (by decide)).trans (W3_row m ρ c)
theorem W4_col : W4 m ρ c (Proc.devRef .tc main_v6) = val_main_v6 (F := Ideal) (A1 m c) :=
  (W4_of_ne m ρ c main_v6 (by decide)).trans (W3_col m ρ c)
theorem W4_norm : W4 m ρ c (Proc.devRef .tc main_v29) = val_main_v29 (F := Ideal) (A1 m c) :=
  (W4_of_ne m ρ c main_v29 (by decide)).trans (W3_norm m ρ c)

/-- The weighted sum of the first product over each node's incoming edges. -/
theorem W5_agg : W5 m ρ c (Proc.devRef .tc main_v43) = val_main_v43 (F := Ideal) (A0 m c) (A1 m c) (A3 m c) :=
  s1_agg (W4 m ρ c) (A0 m c) (A1 m c) (A3 m c) (W4_xw m ρ c) (W4_row m ρ c) (W4_col m ρ c) (W4_norm m ρ c)
/-- The first bias as one row. -/
theorem W5_bias (q : Fin 64) : W5 m ρ c (Proc.devRef .tc main_v44) (ix2 (0 : Fin 1) q) = A4 m c (ix1 q) :=
  (s1_bias (W4 m ρ c) q).trans (congrFun ((W4_of_ne m ρ c main_arg4 (by decide)).trans
    (W3_launch m ρ c main_arg4 (by decide) (by decide) (by decide))) (ix1 q))

/-- The first layer's output: bias added, negative entries cut to zero. -/
theorem W6_h : W6 m ρ c (Proc.devRef .tc main_v45) = val_main_v47 (F := Ideal) (A0 m c) (A1 m c) (A3 m c) (A4 m c) :=
  (W6_arr m ρ c 2).trans (Region1.region1 (V5 m ρ) c (A0 m c) (A1 m c) (A3 m c) (A4 m c) (W5_agg m ρ c) (W5_bias m ρ c))

/-! The run's contents up to the exit of the third region (boundary `W7`): the edge lists with their self loops, the
    edge weights, the second feature product, and the arguments not yet used, each as the reference's stage. -/

/-- Source nodes of the edges, self loops appended. -/
theorem W7_row : W7 m ρ c (Proc.devRef .tc main_v3) = val_main_v3 (F := Ideal) (A1 m c) :=
  (W7_of_W3 m ρ c main_v3 (by decide) (by decide) (by decide) (by decide)).trans (W3_row m ρ c)
/-- Target nodes of the edges, self loops appended. -/
theorem W7_col : W7 m ρ c (Proc.devRef .tc main_v6) = val_main_v6 (F := Ideal) (A1 m c) :=
  (W7_of_W3 m ρ c main_v6 (by decide) (by decide) (by decide) (by decide)).trans (W3_col m ρ c)
/-- The symmetric normalisation weight of every edge. -/
theorem W7_norm : W7 m ρ c (Proc.devRef .tc main_v29) = val_main_v29 (F := Ideal) (A1 m c) :=
  (W7_of_W3 m ρ c main_v29 (by decide) (by decide) (by decide) (by decide)).trans (W3_norm m ρ c)
/-- The second feature product. -/
theorem W7_h1 : W7 m ρ c (Proc.devRef .tc main_v46) = val_main_v71 (F := Ideal) (A0 m c) (A1 m c) (A3 m c) (A4 m c) (A5 m c) :=
  (W7_arr m ρ c 2).trans (Region2.region2 (V6 m ρ) c (A0 m c) (A1 m c) (A3 m c) (A4 m c) (A5 m c) (W6_h m ρ c)
    ((W6_of_ne m ρ c main_arg5 (by decide)).trans
      (W5_launch m ρ c main_arg5 (by decide) (by decide) (by decide) (by decide) (by decide))))
theorem W7_arg2 : W7 m ρ c (Proc.devRef .tc main_arg2) = m ((c : Thread nD τ).loc main_arg2) :=
  W7_launch m ρ c main_arg2 (by decide) (by decide) (by decide) (by decide) (by decide) (by decide) (by decide)
theorem W7_arg6 : W7 m ρ c (Proc.devRef .tc main_arg6) = m ((c : Thread nD τ).loc main_arg6) :=
  W7_launch m ρ c main_arg6 (by decide) (by decide) (by decide) (by decide) (by decide) (by decide) (by decide)
theorem W7_arg7 : W7 m ρ c (Proc.devRef .tc main_arg7) = m ((c : Thread nD τ).loc main_arg7) :=
  W7_launch m ρ c main_arg7 (by decide) (by decide) (by decide) (by decide) (by decide) (by decide) (by decide)
theorem W7_arg8 : W7 m ρ c (Proc.devRef .tc main_arg8) = m ((c : Thread nD τ).loc main_arg8) :=
  W7_launch m ρ c main_arg8 (by decide) (by decide) (by decide) (by decide) (by decide) (by decide) (by decide)

end Cert.Bridge.FoldA

end
-- ==== Proof.Region3.lean ====
import proofs.«409668_j5222680232280_2_alg».proof.Proof.Gen.KernelIdeal.Frame
import proofs.«409668_j5222680232280_2_alg».proof.Proof.RefRead
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Bridge.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.ReferenceIdeal.Read (val_main_v3 val_main_v6 val_main_v29 val_main_v30 val_main_v43 val_main_v47 val_main_v71 val_main_v84 val_main_v88 val_main_v91 val_main_v95 val_main_v115)

/-- The contents of a reference-side array of the given shape, at the ideal instance. -/
abbrev RArr (s : Shape) : Type := s.Idx → EReal
/-- The contents of a reference-side index array of the given shape. -/
abbrev RIdx (s : Shape) : Type := s.Idx → BitVec 32

/-- The TensorCore's buffer contents when a region is entered. -/
abbrev Entry : Type := (c : Dev nD) → (b : Ref sig .tc) → Buf (Elt Ideal) ((c : Thread nD τ).loc b)

/-- The two zero offsets of a whole-buffer access, as a function of the axis. -/
theorem zero_off : (![0, 0] : Fin 2 → Nat) = fun _ => 0 := funext fun a => by
  match a with
  | ⟨0, _⟩ => rfl
  | ⟨1, _⟩ => rfl

/-- The three index maps over the ten points: the aggregate's and the result's block index is (t, 0), the bias's (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The payload at (p, q): the aggregate's entry plus the bias row's entry of column q, rectified at the zero word. -/
theorem pay_apply {F : FTy → Type} [FloatOps F] (x : Vec F S10000x64 .f32) (b : Vec F S1x64 .f32) (p : Fin 10000) (q : Fin 64) :
    k3_pay1 x b (ix2 p q)
      = FloatOps.maximumf (FloatOps.addf (x (ix2 p q)) (b (ix2 (0 : Fin 1) q))) (FloatOps.ofBits .f32 0x00000000#32) := by
  unfold k3_pay1
  show FloatOps.maximumf (FloatOps.addf (shapeCast S10000x64 x _ (ix2 p q)) (broadcastTo S10000x64 (shapeCast S1x64 b _) _ (ix2 p q))) _ = _
  rw [shapeCast_self, shapeCast_self, broadcastTo_1b_ab_apply]
  rfl

/-- The aggregate's block at point t reads, at (p, q) inside it, the array's entry (10000 t + p, q). -/
theorem agg_blk (V : Entry) (c : Dev nD) (t : Fin cfg3.N) (p : Fin 10000) (q : Fin 64) (k : S100000x64.Idx)
    (hk0 : (k 0).val = 10000 * t.val + p.val) (hk1 : (k 1).val = q.val) :
    (iblk3 V c 0 t : Vec Ideal S10000x64 .f32) (ix2 p q) = (V c main_v59 : S100000x64.Idx → EReal) k := by
  obtain ⟨e0, e1, -⟩ := idx_facts t
  unfold iblk3
  rw [View.read_apply]
  show V c main_v59 _ = V c main_v59 _
  congr 1
  funext a
  apply Fin.ext
  match a with
  | ⟨0, _⟩ => show win3_0.index t (0 : Fin 2) * 10000 + 1 * p.val = (k 0).val; rw [e0, hk0]; omega
  | ⟨1, _⟩ => show win3_0.index t (1 : Fin 2) * 64 + 1 * q.val = (k 1).val; rw [e1, hk1]; omega

/-- The bias's block at every point is the whole one-row array: at (0, q) it reads the array's entry (0, q). -/
theorem bias_blk (V : Entry) (c : Dev nD) (t : Fin cfg3.N) (q : Fin 64) :
    (iblk3 V c 1 t : Vec Ideal S1x64 .f32) (ix2 (0 : Fin 1) q) = (V c main_v60 : S1x64.Idx → EReal) (ix2 (0 : Fin 1) q) := by
  obtain ⟨-, -, e2, e3, -⟩ := idx_facts t
  unfold iblk3
  rw [View.read_apply]
  show V c main_v60 _ = V c main_v60 _
  congr 1
  funext a
  apply Fin.ext
  match a with
  | ⟨0, _⟩ => show win3_1.index t (0 : Fin 2) * 1 + 1 * 0 = 0; rw [e2]
  | ⟨1, _⟩ => show win3_1.index t (1 : Fin 2) * 64 + 1 * q.val = q.val; rw [e3]; omega

/-- The reference's second hidden layer at an index of column q: the second aggregate there plus the bias's entry q, rectified at the zero word. -/
theorem ref_apply (a0 : RArr ⟨2, ![100000, 128]⟩) (a1 : RIdx ⟨2, ![2, 3200000]⟩) (a3 : RArr ⟨2, ![128, 64]⟩) (a4 : RArr ⟨1, ![64]⟩) (a5 : RArr ⟨2, ![64, 64]⟩) (a6 : RArr ⟨1, ![64]⟩)
    (i : Cert.ReferenceIdeal.S100000x64.Idx) (q : Fin 64) (hq : (i 1).val = q.val) :
    val_main_v88 (F := Ideal) a0 a1 a3 a4 a5 a6 i
      = FloatOps.maximumf (F := Ideal) (φ := .f32) (FloatOps.addf (F := Ideal) (φ := .f32) (val_main_v84 (F := Ideal) a0 a1 a3 a4 a5 i) (a6 (ix1 q))) (FloatOps.ofBits .f32 0x00000000#32) := by
  rw [Cert.ReferenceIdeal.Read.val_main_v88_apply, Cert.ReferenceIdeal.Read.val_main_v87_apply,
    Cert.ReferenceIdeal.Read.val_main_v86_apply, Cert.ReferenceIdeal.Read.val_main_v85_apply,
    Cert.ReferenceIdeal.Read.val_main_call3_v0_apply, Cert.ReferenceIdeal.Read.val_main_call3_cst_apply]
  have hi : Cert.ReferenceIdeal.Read.idx_main_v85 (Cert.ReferenceIdeal.Read.idx_main_v86 i) = ix1 q := by
    funext a
    match a with
    | ⟨0, _⟩ => exact Fin.ext hq
  rw [hi]

/-- What point t writes back is block t of any whole-array function G that is, entry by entry, the rectified sum of the
    aggregate array's entry and the bias row's entry of that column. -/
theorem flushed_of (V : Entry) (c : Dev nD) (A G : S100000x64.Idx → EReal) (b : Fin 64 → EReal)
    (hagg : (V c main_v59 : S100000x64.Idx → EReal) = A)
    (hb : ∀ q : Fin 64, (V c main_v60 : S1x64.Idx → EReal) (ix2 (0 : Fin 1) q) = b q)
    (hG : ∀ (i : S100000x64.Idx) (q : Fin 64), (i 1).val = q.val →
      G i = FloatOps.maximumf (F := Ideal) (φ := .f32) (FloatOps.addf (F := Ideal) (φ := .f32) (A i) (b q)) (FloatOps.ofBits .f32 0x00000000#32))
    (t : Fin cfg3.N) :
    (dat3 V c).flushed 2 t = ((cfg3.win 2).blk t).view.read (Elt Ideal) G := by
  show (cfg3.win 2).cut (grid3.coords t) ((dat3 V c).after 2 t) = _
  rw [after3_2]
  unfold out3_2
  rw [View.canon_unit_zero zero_off]
  simp only [View.ld_unit_zero (S := S10000x64) zero_off, View.ld_unit_zero (S := S1x64) zero_off]
  funext y
  obtain ⟨p, q, rfl⟩ : ∃ (p : Fin 10000) (q : Fin 64), y = ix2 p q := ⟨y 0, y 1, eq_ix2 y⟩
  obtain ⟨-, -, -, -, e4, e5⟩ := idx_facts t
  show k3_pay1 (iblk3 V c 0 t) (iblk3 V c 1 t) (ix2 p q) = G (((cfg3.win 2).blk t).view.emb (ix2 p q))
  have hk0 : ((((cfg3.win 2).blk t).view.emb (ix2 p q) : S100000x64.Idx) 0).val = 10000 * t.val + p.val := by
    show win3_2.index t (0 : Fin 2) * 10000 + 1 * p.val = _; rw [e4]; omega
  have hk1 : ((((cfg3.win 2).blk t).view.emb (ix2 p q) : S100000x64.Idx) 1).val = q.val := by
    show win3_2.index t (1 : Fin 2) * 64 + 1 * q.val = _; rw [e5]; omega
  refine (pay_apply (iblk3 V c 0 t) (iblk3 V c 1 t) p q).trans ?_
  rw [agg_blk V c t p q _ hk0 hk1, bias_blk V c t q, hagg, hb q]
  exact (hG _ q hk1).symm

/-- An index of the result array is in point t's block exactly when, on each axis, its coordinate lies in the block's range. -/
theorem mem_blk (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v61).slice (win3_2.rect t)).set ↔ _
  rw [View.set_slice_whole, Rect.mem_set_unit]
  exact Iff.rfl

/-- The ten row blocks tile the result array: row r lies in the block of point r / 10000. -/
theorem cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ : ∃ t : Fin cfg3.N, t.val = (i 0).val / 10000 :=
    ⟨⟨(i 0).val / 10000, lt_of_lt_of_eq (by omega) N_3.symm⟩, rfl⟩
  obtain ⟨-, -, -, -, e4, e5⟩ := idx_facts t
  refine ⟨t, flush3_2 t, ?_⟩
  rw [mem_blk]
  intro a
  match a with
  | ⟨0, _⟩ =>
    show win3_2.index t (0 : Fin 2) * 10000 ≤ (i 0).val ∧ (i 0).val < win3_2.index t (0 : Fin 2) * 10000 + 10000
    rw [e4, ht]; omega
  | ⟨1, _⟩ =>
    show win3_2.index t (1 : Fin 2) * 64 ≤ (i 1).val ∧ (i 1).val < win3_2.index t (1 : Fin 2) * 64 + 64
    rw [e5]; omega

/-- Bias and rectification after the second aggregation: if the region finds the reference's second aggregate in its
    input array and the second bias as a one-row matrix beside it, it leaves the reference's second hidden layer. -/
theorem region3 (V : Entry) (c : Dev nD) (a0 : RArr ⟨2, ![100000, 128]⟩) (a1 : RIdx ⟨2, ![2, 3200000]⟩) (a3 : RArr ⟨2, ![128, 64]⟩) (a4 : RArr ⟨1, ![64]⟩) (a5 : RArr ⟨2, ![64, 64]⟩) (a6 : RArr ⟨1, ![64]⟩)
    (hagg : V c main_v59 = val_main_v84 (F := Ideal) a0 a1 a3 a4 a5)
    (hb : ∀ q : Fin 64, V c main_v60 (ix2 (0 : Fin 1) q) = a6 (ix1 q)) :
    (dat3 V c).arrAt 2 cfg3.N = val_main_v88 (F := Ideal) a0 a1 a3 a4 a5 a6 :=
  (dat3 V c).arrAt_eq_of_cover 2 (val_main_v88 (F := Ideal) a0 a1 a3 a4 a5 a6)
    (fun t _ => flushed_of V c (val_main_v84 (F := Ideal) a0 a1 a3 a4 a5) (val_main_v88 (F := Ideal) a0 a1 a3 a4 a5 a6) (fun q => a6 (ix1 q))
      hagg hb (fun i q hq => ref_apply a0 a1 a3 a4 a5 a6 i q hq) t)
    cover

end Cert.Bridge.Region3

end
-- ==== Proof.LibSegmentSum.lean ====
/-
  Index-driven host operations read at one index, at the ideal instance (floats are extended reals).

  A segment sum adds, at each segment, the updates whose index word names that segment; an indexed read takes the row
  its index word names. Both are stated over ANY dimension-number record of the right type whose fields are given by
  hypotheses, so that one statement serves every size at which a program uses the operation.

  * `scatterAdd_seg1`   : a one-axis segment sum at a segment.
  * `scatterAdd_segRows`: a segment sum of rows at (segment, column).
  * `gather_rows`       : a gather of rows at (position, column).
  * `gather_seg1`       : a one-axis gather at a position.
  * `clamp_of_inRange`  : a word in range is its own clamp.

  The road for a segment sum: on each operand axis the landing coordinate of an update is its window start (the index
  word read signed, on the axis the index names; zero elsewhere) plus its window coordinate (the update's own coordinate
  on a kept axis; zero on an inserted one). So an update lands on a given element exactly when its index word is the
  element's segment and its remaining coordinates are the element's. The sum over the update indices that land there
  is then re-indexed by coordinates.
-/
import Idealize.ShloMosaic.PureOps.Ideal
import Idealize.ShloMosaic.PureOps.Contract
import Idealize.ShloMosaic.Lib.ValueIdx
import Idealize.ShloMosaic.Lib.ValueIdxRank1
import Idealize.ShloMosaic.Lib.StableHlo.Predicate

noncomputable section

open scoped BigOperators

namespace Cert.LibSegmentSum

open Idealize.ShloMosaic Idealize.ShloMosaic.ValueIdx

/-! ## One-axis segment sum -/

section Seg1

variable {N M w : Nat} (d : ScatterDims ⟨1, ![N]⟩ ⟨2, ![M, 1]⟩ ⟨1, ![M]⟩)

/-- The window's start on the one operand axis is the update's index word, read signed. -/
theorem start_seg1 (hsd : d.scatterDimsToOperandDims = [0]) (hiv : d.indexVectorDim = 1)
    (idx : IVec ⟨2, ![M, 1]⟩ w) (e : Fin M) :
    d.start (ix1 e) idx 0 = (idx (ix2 e 0)).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    -- the row of the index table: the update's one coordinate
    unfold ScatterDims.siIdx
    rw [dif_neg (by rw [hiv]; simp)]
    unfold ScatterDims.siCoord
    apply Fin.ext
    simp only [Fin.val_cast]
    have one : ∀ X : Fin 1, ((ix1 e : (⟨1, ![M]⟩ : Shape).Idx) X).val = e.val := fun X => by
      obtain rfl : X = 0 := Subsingleton.elim _ _
      rfl
    exact one _
  | ⟨1, _⟩ =>
    -- the column of the index table: the position of operand axis 0 in the map, which is 0
    unfold ScatterDims.siIdx
    rw [dif_pos (by rw [hiv])]
    apply Fin.ext
    show List.idxOf (0 : Fin 1) d.scatterDimsToOperandDims = 0
    rw [hsd]; simp

/-- The operand's one axis is inserted: the update has no coordinate inside the window. -/
theorem window_seg1 (hiw : d.insertedWindowDims = [0]) (j : (⟨1, ![M]⟩ : Shape).Idx) : d.window j 0 = 0 := by
  unfold ScatterDims.window
  rw [dif_neg]
  rw [ScatterDims.sKept, hiw]
  simp [Shape.kept, List.mem_filter]

end Seg1

section Seg1Main

variable {N M w : Nat} (d : ScatterDims ⟨1, ![N]⟩ ⟨2, ![M, 1]⟩ ⟨1, ![M]⟩)

/-- An update lands on segment `i` exactly when its index word, read signed, is `i`. -/
theorem resultIdx_seg1 (hiw : d.insertedWindowDims = [0]) (hsd : d.scatterDimsToOperandDims = [0]) (hiv : d.indexVectorDim = 1)
    (idx : IVec ⟨2, ![M, 1]⟩ w) (e : Fin M) (i : Fin N) :
    d.resultIdx? (ix1 e) idx = some (ix1 i) ↔ (idx (ix2 e 0)).toInt = (i.val : ℤ) := by
  have hs := start_seg1 d hsd hiv idx e
  have hw := window_seg1 d hiw (ix1 e)
  have hi := i.isLt
  constructor
  · intro h
    unfold ScatterDims.resultIdx? at h
    split at h
    · rename_i hall
      have h0 := congrArg Fin.val (congrFun (Option.some.inj h) 0)
      have hb := hall 0
      rw [hs, hw] at hb
      change (d.start (ix1 e) idx 0 + (d.window (ix1 e) 0 : ℤ)).toNat = i.val at h0
      rw [hs, hw] at h0
      omega
    · cases h
  · intro h
    have hall : ∀ a, 0 ≤ d.start (ix1 e) idx a + d.window (ix1 e) a ∧
        d.start (ix1 e) idx a + d.window (ix1 e) a < (⟨1, ![N]⟩ : Shape).size a := by
      intro a
      obtain rfl : a = 0 := Subsingleton.elim _ _
      rw [hs, hw]
      change 0 ≤ (idx (ix2 e 0)).toInt + ((0 : ℕ) : ℤ) ∧ (idx (ix2 e 0)).toInt + ((0 : ℕ) : ℤ) < (N : ℤ)
      omega
    unfold ScatterDims.resultIdx?
    rw [dif_pos hall]
    congr 1
    funext a
    obtain rfl : a = 0 := Subsingleton.elim _ _
    apply Fin.ext
    change (d.start (ix1 e) idx 0 + (d.window (ix1 e) 0 : ℤ)).toNat = i.val
    rw [hs, hw]
    omega

end Seg1Main

/-- A one-axis segment sum read at a segment: the operand there plus the updates whose index word, read signed, is that segment. -/
theorem scatterAdd_seg1 {N M w : Nat} (d : ScatterDims ⟨1, ![N]⟩ ⟨2, ![M, 1]⟩ ⟨1, ![M]⟩)
    (huw : d.updateWindowDims = []) (hiw : d.insertedWindowDims = [0]) (hsd : d.scatterDimsToOperandDims = [0]) (hiv : d.indexVectorDim = 1)
    (x : (⟨1, ![N]⟩ : Shape).Idx → EReal) (idx : IVec ⟨2, ![M, 1]⟩ w) (upd : (⟨1, ![M]⟩ : Shape).Idx → EReal) (i : Fin N) :
    Host.scatterAdd (F := Ideal) (φ := .f32) d x idx upd (ix1 i)
      = x (ix1 i) + ∑ e ∈ Finset.univ.filter (fun e : Fin M => (idx (ix2 e 0)).toInt = (i.val : ℤ)), upd (ix1 e) := by
  change x (ix1 i) + ∑ j ∈ Finset.univ.filter (fun j => d.resultIdx? j idx = some (ix1 i)), upd j = _
  congr 1
  -- a sum over the update indices is a sum over their one coordinate
  rw [Finset.sum_filter, Finset.sum_filter, ← Equiv.sum_comp idxEquiv1.symm]
  refine Finset.sum_congr rfl fun e _ => ?_
  change (if d.resultIdx? (ix1 e) idx = some (ix1 i) then upd (ix1 e) else 0) = _
  simp only [resultIdx_seg1 d hiw hsd hiv idx e i]

/-! ## Segment sum of rows -/

/-- An entry of a one-element list is that element. -/
theorem getElem_of_eq_singleton {α : Type} {l : List α} {a : α} (hl : l = [a]) (k : Nat) (h : k < l.length) : l[k] = a := by
  subst hl
  have hk : k = 0 := by simpa using h
  subst hk
  rfl

section Rows

variable {N M D w : Nat} (d : ScatterDims ⟨2, ![N, D]⟩ ⟨2, ![M, 1]⟩ ⟨2, ![M, D]⟩)

/-- On the segment axis the window's start is the update row's index word, read signed. -/
theorem start_rows0 (huw : d.updateWindowDims = [1]) (hsd : d.scatterDimsToOperandDims = [0]) (hiv : d.indexVectorDim = 1)
    (idx : IVec ⟨2, ![M, 1]⟩ w) (e : Fin M) (c' : Fin D) :
    d.start (ix2 e c') idx 0 = (idx (ix2 e 0)).toInt := by
  have hm : (0 : Fin 2) ∈ d.scatterDimsToOperandDims := by rw [hsd]; exact List.mem_singleton.mpr rfl
  -- the updates' one scatter axis is axis 0
  have hus : d.uScatter = [(0 : Fin 2)] := by
    change (⟨2, ![M, D]⟩ : Shape).kept d.updateWindowDims = [0]
    rw [huw]; rfl
  unfold ScatterDims.start
  rw [dif_pos hm]
  congr 2
  funext b
  match b with
  | ⟨0, _⟩ =>
    unfold ScatterDims.siIdx
    rw [dif_neg (by rw [hiv]; simp)]
    unfold ScatterDims.siCoord
    apply Fin.ext
    simp only [Fin.val_cast]
    have row : ∀ X : Fin 2, X = 0 → ((ix2 e c' : (⟨2, ![M, D]⟩ : Shape).Idx) X).val = e.val := by
      rintro _ rfl; rfl
    exact row _ (getElem_of_eq_singleton hus _ _)
  | ⟨1, _⟩ =>
    unfold ScatterDims.siIdx
    rw [dif_pos (by rw [hiv])]
    apply Fin.ext
    show List.idxOf (0 : Fin 2) d.scatterDimsToOperandDims = 0
    rw [hsd]; simp

/-- The column axis is not named by the index: its window starts at zero. -/
theorem start_rows1 (hsd : d.scatterDimsToOperandDims = [0]) (idx : IVec ⟨2, ![M, 1]⟩ w) (j : (⟨2, ![M, D]⟩ : Shape).Idx) :
    d.start j idx 1 = 0 := by
  unfold ScatterDims.start
  rw [dif_neg (by rw [hsd]; simp)]

/-- The segment axis is inserted: the update has no coordinate inside the window there. -/
theorem window_rows0 (hiw : d.insertedWindowDims = [0]) (j : (⟨2, ![M, D]⟩ : Shape).Idx) : d.window j 0 = 0 := by
  unfold ScatterDims.window
  rw [dif_neg]
  rw [ScatterDims.sKept, hiw]
  simp [Shape.kept, List.mem_filter]

/-- On the column axis the window coordinate is the update's column. -/
theorem window_rows1 (huw : d.updateWindowDims = [1]) (hiw : d.insertedWindowDims = [0]) (e : Fin M) (c' : Fin D) :
    d.window (ix2 e c') 1 = c'.val := by
  have hk : (1 : Fin 2) ∈ d.sKept := by
    rw [ScatterDims.sKept, hiw]
    simp [Shape.kept, List.mem_filter]
  unfold ScatterDims.window
  rw [dif_pos hk]
  have col : ∀ X : Fin 2, X = 1 → ((ix2 e c' : (⟨2, ![M, D]⟩ : Shape).Idx) X).val = c'.val := by
    rintro _ rfl; rfl
  exact col _ (getElem_of_eq_singleton huw _ _)

end Rows

section RowsMain

variable {N M D w : Nat} (d : ScatterDims ⟨2, ![N, D]⟩ ⟨2, ![M, 1]⟩ ⟨2, ![M, D]⟩)

/-- An update element lands on (segment `i`, column `c`) exactly when its row's index word, read signed, is `i`
    and its own column is `c`. -/
theorem resultIdx_rows (huw : d.updateWindowDims = [1]) (hiw : d.insertedWindowDims = [0]) (hsd : d.scatterDimsToOperandDims = [0])
    (hiv : d.indexVectorDim = 1) (idx : IVec ⟨2, ![M, 1]⟩ w) (e : Fin M) (c' : Fin D) (i : Fin N) (c : Fin D) :
    d.resultIdx? (ix2 e c') idx = some (ix2 i c) ↔ ((idx (ix2 e 0)).toInt = (i.val : ℤ) ∧ c' = c) := by
  have hs0 := start_rows0 d huw hsd hiv idx e c'
  have hs1 := start_rows1 d hsd idx (ix2 e c')
  have hw0 := window_rows0 d hiw (ix2 e c')
  have hw1 := window_rows1 d huw hiw e c'
  have hi := i.isLt
  have hc := c.isLt
  have hc' := c'.isLt
  constructor
  · intro h
    unfold ScatterDims.resultIdx? at h
    split at h
    · rename_i hall
      have hf := Option.some.inj h
      have h0 := congrArg Fin.val (congrFun hf 0)
      have h1 := congrArg Fin.val (congrFun hf 1)
      have hb := hall 0
      rw [hs0, hw0] at hb
      change (d.start (ix2 e c') idx 0 + (d.window (ix2 e c') 0 : ℤ)).toNat = i.val at h0
      change (d.start (ix2 e c') idx 1 + (d.window (ix2 e c') 1 : ℤ)).toNat = c.val at h1
      rw [hs0, hw0] at h0
      rw [hs1, hw1] at h1
      exact ⟨by omega, Fin.ext (by omega)⟩
    · cases h
  · rintro ⟨h, rfl⟩
    have hall : ∀ a, 0 ≤ d.start (ix2 e c') idx a + d.window (ix2 e c') a ∧
        d.start (ix2 e c') idx a + d.window (ix2 e c') a < (⟨2, ![N, D]⟩ : Shape).size a := by
      refine Fin.forall_fin_two.mpr ⟨?_, ?_⟩
      · rw [hs0, hw0]
        change 0 ≤ (idx (ix2 e 0)).toInt + ((0 : ℕ) : ℤ) ∧ (idx (ix2 e 0)).toInt + ((0 : ℕ) : ℤ) < (N : ℤ)
        omega
      · rw [hs1, hw1]
        change 0 ≤ (0 : ℤ) + ((c'.val : ℕ) : ℤ) ∧ (0 : ℤ) + ((c'.val : ℕ) : ℤ) < (D : ℤ)
        omega
    unfold ScatterDims.resultIdx?
    rw [dif_pos hall]
    congr 1
    funext a
    apply Fin.ext
    revert a
    refine Fin.forall_fin_two.mpr ⟨?_, ?_⟩
    · change (d.start (ix2 e c') idx 0 + (d.window (ix2 e c') 0 : ℤ)).toNat = i.val
      rw [hs0, hw0]
      omega
    · change (d.start (ix2 e c') idx 1 + (d.window (ix2 e c') 1 : ℤ)).toNat = c'.val
      rw [hs1, hw1]
      omega

end RowsMain

/-- A segment sum of rows read at (segment, column). -/
theorem scatterAdd_segRows {N M D w : Nat} (d : ScatterDims ⟨2, ![N, D]⟩ ⟨2, ![M, 1]⟩ ⟨2, ![M, D]⟩)
    (huw : d.updateWindowDims = [1]) (hiw : d.insertedWindowDims = [0]) (hsd : d.scatterDimsToOperandDims = [0]) (hiv : d.indexVectorDim = 1)
    (x : (⟨2, ![N, D]⟩ : Shape).Idx → EReal) (idx : IVec ⟨2, ![M, 1]⟩ w) (upd : (⟨2, ![M, D]⟩ : Shape).Idx → EReal) (i : Fin N) (c : Fin D) :
    Host.scatterAdd (F := Ideal) (φ := .f32) d x idx upd (ix2 i c)
      = x (ix2 i c) + ∑ e ∈ Finset.univ.filter (fun e : Fin M => (idx (ix2 e 0)).toInt = (i.val : ℤ)), upd (ix2 e c) := by
  change x (ix2 i c) + ∑ j ∈ Finset.univ.filter (fun j => d.resultIdx? j idx = some (ix2 i c)), upd j = _
  congr 1
  -- a sum over the update indices is the double sum over (row, column); in each row only column `c` can land
  rw [Finset.sum_filter, Finset.sum_filter, sum_idx2]
  refine Finset.sum_congr rfl fun e _ => ?_
  simp only [resultIdx_rows d huw hiw hsd hiv idx]
  by_cases hP : (idx (ix2 e 0)).toInt = (i.val : ℤ)
  · simp [hP]
  · simp [hP]

/-! ## Gathers -/

/-- The index of row `p` of a one-column table, in the two spellings that name it. -/
theorem ixP_eq {n : Nat} (p : Fin n) : StableHlo.Predicate.ixP p = ix2 p (0 : Fin 1) := by
  funext b; match b with | ⟨0, _⟩ => rfl | ⟨1, _⟩ => rfl

/-- A rank-1 index from its coordinate, in the two spellings that name it. -/
theorem ofFin_eq {n : Nat} (p : Fin n) : Shape.Idx.ofFin p = ix1 p := by
  funext b; match b with | ⟨0, _⟩ => rfl

/-- A one-axis gather (x[idx] of a flat array) read at a position: the entry the index word names, read signed and clamped into [0, N - 1]. -/
theorem gather_seg1 {α : Type} {N M w : Nat} (d : GatherDims ⟨1, ![N]⟩ ⟨2, ![M, 1]⟩ ⟨1, ![M]⟩) (hcoll : d.collapsedSliceDims = [0]) (hob : d.operandBatchingDims = []) (hsim : d.startIndexMap = [0]) (hivd : d.indexVectorDim = 1)
    (x : (⟨1, ![N]⟩ : Shape).Idx → α) (idx : IVec ⟨2, ![M, 1]⟩ w) (e : Fin M) (hN : 0 < N) :
    Host.gather d x idx (ix1 e) = x (ix1 ⟨min (idx (ix2 e 0)).toInt.toNat (N - 1), by omega⟩) := by
  have h := StableHlo.Predicate.gather_take d hcoll hob hsim hivd x idx e hN
  rw [ofFin_eq, ofFin_eq] at h
  simp only [ixP_eq] at h
  exact h

section GRows

variable {N M D w : Nat} (d : GatherDims ⟨2, ![N, D]⟩ ⟨2, ![M, 1]⟩ ⟨2, ![M, D]⟩)

/-- The start-index table is read at (the result's row, 0). -/
theorem siIdx_rows (hoff : d.offsetDims = [1]) (hsim : d.startIndexMap = [0]) (hivd : d.indexVectorDim = 1)
    (e : Fin M) (c : Fin D) (k : Fin d.startIndexMap.length) :
    d.siIdx (ix2 e c) k = ix2 e 0 := by
  -- the result's one batch axis is axis 0
  have hbd : d.batchDims = [(0 : Fin 2)] := by
    change (⟨2, ![M, D]⟩ : Shape).kept d.offsetDims = [0]
    rw [hoff]; rfl
  funext b
  match b with
  | ⟨0, _⟩ =>
    unfold GatherDims.siIdx
    rw [dif_neg (by rw [hivd]; simp)]
    unfold GatherDims.siCoord
    apply Fin.ext
    simp only [Fin.val_cast]
    have row : ∀ X : Fin 2, X = 0 → ((ix2 e c : (⟨2, ![M, D]⟩ : Shape).Idx) X).val = e.val := by
      rintro _ rfl; rfl
    exact row _ (getElem_of_eq_singleton hbd _ _)
  | ⟨1, _⟩ =>
    unfold GatherDims.siIdx
    rw [dif_pos (by rw [hivd])]
    apply Fin.ext
    show k.val = 0
    have hk : k.val < d.startIndexMap.length := k.isLt
    have hl : d.startIndexMap.length = 1 := by rw [hsim]; rfl
    omega

/-- On the column axis the offset coordinate is the result's column. -/
theorem offCoord_rows1 (hoff : d.offsetDims = [1]) (hcoll : d.collapsedSliceDims = [0]) (hob : d.operandBatchingDims = [])
    (e : Fin M) (c : Fin D) : d.offCoord (ix2 e c) 1 = c.val := by
  have hk : (1 : Fin 2) ∈ d.sKept := by rw [GatherDims.mem_sKept, hcoll, hob]; simp
  unfold GatherDims.offCoord
  rw [dif_pos hk]
  have col : ∀ X : Fin 2, X = 1 → ((ix2 e c : (⟨2, ![M, D]⟩ : Shape).Idx) X).val = c.val := by
    rintro _ rfl; rfl
  exact col _ (getElem_of_eq_singleton hoff _ _)

end GRows

/-- A gather of rows (x[idx] of a matrix) read at (position, column): the row the index word names, read signed and clamped into [0, N - 1]. -/
theorem gather_rows {α : Type} {N M D w : Nat} (d : GatherDims ⟨2, ![N, D]⟩ ⟨2, ![M, 1]⟩ ⟨2, ![M, D]⟩)
    (hoff : d.offsetDims = [1]) (hcoll : d.collapsedSliceDims = [0]) (hob : d.operandBatchingDims = []) (hsb : d.startIndicesBatchingDims = [])
    (hsim : d.startIndexMap = [0]) (hivd : d.indexVectorDim = 1) (hss : d.sliceSizes = ![1, D])
    (x : (⟨2, ![N, D]⟩ : Shape).Idx → α) (idx : IVec ⟨2, ![M, 1]⟩ w) (e : Fin M) (c : Fin D) (hN : 0 < N) :
    Host.gather d x idx (ix2 e c) = x (ix2 ⟨min (idx (ix2 e 0)).toInt.toNat (N - 1), by omega⟩ c) := by
  have hb : ∀ a : Fin 2, a ∉ d.operandBatchingDims := fun a => by rw [hob]; exact List.not_mem_nil
  unfold Host.gather
  congr 1
  funext a
  apply Fin.ext
  revert a
  refine Fin.forall_fin_two.mpr ⟨?_, ?_⟩
  · -- the row axis: collapsed and named by the index, so the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    change d.start (ix2 e c) idx 0 + d.batchCoord (ix2 e c) 0 + d.offCoord (ix2 e c) 0 = min (idx (ix2 e 0)).toInt.toNat (N - 1)
    rw [GatherDims.batchCoord_eq_zero _ _ _ (hb 0), GatherDims.offCoord_eq_zero _ _ _ hk]
    simp only [Nat.add_zero]
    unfold GatherDims.start
    rw [dif_pos hm, siIdx_rows d hoff hsim hivd e c, hsl]
    rfl
  · -- the column axis: kept and not named by the index, so the offset coordinate alone
    have hm : (1 : Fin 2) ∉ d.startIndexMap := by rw [hsim]; simp
    change d.start (ix2 e c) idx 1 + d.batchCoord (ix2 e c) 1 + d.offCoord (ix2 e c) 1 = c.val
    rw [GatherDims.batchCoord_eq_zero _ _ _ (hb 1), offCoord_rows1 d hoff hcoll hob e c, Nat.add_zero]
    unfold GatherDims.start
    rw [dif_neg hm, Nat.zero_add]

/-! ## Words -/

/-- A word that, read signed, lies in [0, N) is its own clamp into [0, N - 1]. -/
theorem clamp_of_inRange {N : Nat} (v : BitVec 32) (h0 : 0 ≤ v.toInt) (hN : v.toInt < (N : ℤ)) :
    min v.toInt.toNat (N - 1) = v.toInt.toNat := by
  have h : v.toInt.toNat < N := by omega
  exact Nat.min_eq_left (by omega)

end Cert.LibSegmentSum

end
-- ==== Proof.LibBlockSum.lean ====
/-
  Sums over a range of consecutive indices cut into equal blocks, and words that name a small number.

  * `sum_blocks`     : a sum over the `B * n` indices below `B * n` is the sum, over the `B` blocks, of each block's
                       sum; block `t` holds the indices `n * t + r` with `r < n`.
  * `sum_blocks_nat` : the same for a summand given on the natural numbers, the blocks counted by `Finset.range`.
  * `sum_indicator`  : a sum of terms switched on by a predicate is the sum over the indices where it holds.
  * `toInt_eq_iff`   : a 32-bit word read signed is the number `g < 2^31` exactly when it is the word of `g`.

  These hold in any commutative additive monoid: nothing is asked of the summands (they may be infinite extended reals).
-/
import Mathlib.Algebra.BigOperators.Fin
import Mathlib.Logic.Equiv.Fin.Basic

open scoped BigOperators

namespace Cert.LibBlockSum

/-- The index the pair (block `t`, place `r`) names. -/
theorem pair_val {B n : ℕ} (t : Fin B) (r : Fin n) : (finProdFinEquiv (t, r)).val = n * t.val + r.val := by
  show r.val + n * t.val = n * t.val + r.val
  omega

/-- A sum over `B * n` consecutive indices, block by block. -/
theorem sum_blocks {M : Type*} [AddCommMonoid M] (B n : ℕ) (f : Fin (B * n) → M) :
    ∑ e, f e = ∑ t : Fin B, ∑ r : Fin n, f (finProdFinEquiv (t, r)) := by
  rw [← Equiv.sum_comp finProdFinEquiv f, Fintype.sum_prod_type]

/-- The same for a summand given on the natural numbers: index `e` of block `t`, place `r`, is `n * t + r`. -/
theorem sum_blocks_nat {M : Type*} [AddCommMonoid M] (B n : ℕ) (F : ℕ → M) :
    ∑ e : Fin (B * n), F e.val = ∑ t ∈ Finset.range B, ∑ r : Fin n, F (n * t + r.val) := by
  rw [sum_blocks B n (fun e => F e.val), ← Fin.sum_univ_eq_sum_range (fun t => ∑ r : Fin n, F (n * t + r.val)) B]
  refine Finset.sum_congr rfl fun t _ => Finset.sum_congr rfl fun r _ => ?_
  rw [pair_val]

/-- A sum of terms switched on by a predicate is the sum over the indices where the predicate holds. -/
theorem sum_indicator {ι M : Type*} [Fintype ι] [AddCommMonoid M] (P : ι → Prop) [DecidablePred P] (h : ι → M) :
    ∑ e, (if P e then h e else 0) = ∑ e ∈ Finset.univ.filter P, h e :=
  (Finset.sum_filter P h).symm

/-- A 32-bit word read signed is the small number `g` exactly when it is the word of `g`. -/
theorem toInt_eq_iff (w : BitVec 32) (g : ℕ) (hg : g < 2 ^ 31) : w.toInt = (g : ℤ) ↔ w = BitVec.ofNat 32 g := by
  constructor
  · intro h
    apply BitVec.eq_of_toNat_eq
    rw [BitVec.toNat_ofNat, BitVec.toInt_eq_toNat_cond] at *
    have hw := w.isLt
    split at h <;> omega
  · rintro rfl
    rw [BitVec.toInt_eq_toNat_cond, BitVec.toNat_ofNat]
    have : g % 2 ^ 32 = g := Nat.mod_eq_of_lt (by omega)
    rw [this]
    split <;> omega

end Cert.LibBlockSum
-- ==== Proof.Region4.lean ====
import proofs.«409668_j5222680232280_2_alg».proof.Proof.Gen.KernelIdeal.Frame
import proofs.«409668_j5222680232280_2_alg».proof.Proof.RefRead
import Idealize.ShloMosaic.Lib.ValueIdx
import Idealize.ShloMosaic.Lib.Pipeline.Value
import Idealize.ShloMosaic.PureOps.Ideal.Laws
import proofs.«409668_j5222680232280_2_alg».proof.Proof.LibSegmentSum
import proofs.«409668_j5222680232280_2_alg».proof.Proof.LibBlockSum

set_option maxRecDepth 16384

noncomputable section

namespace Cert.Bridge.Region4

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.ReferenceIdeal.Read (val_main_v3 val_main_v6 val_main_v29 val_main_v30 val_main_v43 val_main_v47 val_main_v71 val_main_v84 val_main_v88 val_main_v91 val_main_v95 val_main_v115)

/-- The contents of a reference-side array of the given shape, at the ideal instance. -/
abbrev RArr (s : Shape) : Type := s.Idx → EReal
/-- The contents of a reference-side index array of the given shape. -/
abbrev RIdx (s : Shape) : Type := s.Idx → BitVec 32

/-- The TensorCore's buffer contents when a region is entered. -/
abbrev Entry : Type := (c : Dev nD) → (b : Ref sig .tc) → Buf (Elt Ideal) ((c : Thread nD τ).loc b)

section Pieces
variable {F : FTy → Type} [FloatOps F]

/-- The zero offsets of a rank-two access, as the constant function. -/
theorem hz2 : (![0, 0] : Fin 2 → Nat) = fun _ => 0 := funext fun a => match a with | ⟨0, _⟩ => rfl | ⟨1, _⟩ => rfl

/-- At a point that is not the first, the body leaves in the output block the one store's value: the update computed
    from the two input blocks and from what the block held. -/
theorem out_B (c : Dev nD) (i : grid4.Coords) (a1 : Memref sig .tc .vmem S10000x64 .f32) (h1 : a1.IsWhole)
    (a2 : Memref sig .tc .vmem S10000x1 .i32) (h2 : a2.IsWhole) (a3 : Memref sig .tc .vmem S128x64 .f32) (h3 : a3.IsWhole)
    (hc : ¬cond4_0 i) (x0 : Vec F S10000x64 .f32) (x1 : Vec F S10000x1 .i32) (xo : Vec F S128x64 .f32) :
    out4_B_2 c i a1 h1 a2 h2 a3 h3 hc x0 x1 xo = k4_pay2 x0 x1 xo := by
  unfold out4_B_2
  rw [View.read_writes_eq_canon _ _ _ (cover4_B_2 c i a1 h1 a2 h2 a3 h3 hc x0 x1 xo)]
  unfold kernelRun4_B
  dsimp only
  sl_unfold_words
  rw [View.canon_unit_zero hz2]
  simp only [View.readAt_eq_ld, h1.read_unread, h2.read_unread, h3.read_unread, View.ld_unit_zero (S := S10000x64) hz2,
    View.ld_unit_zero (S := S10000x1) hz2, View.ld_unit_zero (S := S128x64) hz2]

/-- At the first point the body stores the zero block, reads it back, and leaves the update over it. -/
theorem out_A (c : Dev nD) (i : grid4.Coords) (a1 : Memref sig .tc .vmem S10000x64 .f32) (h1 : a1.IsWhole)
    (a2 : Memref sig .tc .vmem S10000x1 .i32) (h2 : a2.IsWhole) (a3 : Memref sig .tc .vmem S128x64 .f32) (h3 : a3.IsWhole)
    (hc : cond4_0 i) (x0 : Vec F S10000x64 .f32) (x1 : Vec F S10000x1 .i32) :
    out4_A_2 c i a1 h1 a2 h2 a3 h3 hc x0 x1 = k4_pay2 x0 x1 (k4_pay1 (F := F)) := by
  unfold out4_A_2
  rw [View.read_writes_eq_canon _ _ _ (cover4_A_2 c i a1 h1 a2 h2 a3 h3 hc x0 x1)]
  unfold kernelRun4_A
  dsimp only
  sl_unfold_words
  rw [View.canon_cons_unit_zero (S := S128x64) hz2, View.readCov_unit_zero (S := S128x64) _ hz2]
  simp only [View.readAt_eq_ld, h1.read_unread, h2.read_unread, View.ld_unit_zero (S := S10000x64) hz2,
    View.ld_unit_zero (S := S10000x1) hz2]

end Pieces

section Payload

/-- The left operand of the pooling product is read at (contraction position, result row) … -/
theorem lhs_pool_0 (i : S128x64.Idx) (q : dot_S10000x128_S10000x64_S128x64_0_0_1_1_n_n.contr.Idx) :
    (dot_S10000x128_S10000x64_S128x64_0_0_1_1_n_n.lhsIdx i q 0).val = (q ⟨0, by decide⟩).val :=
  dot_S10000x128_S10000x64_S128x64_0_0_1_1_n_n.lhsIdx_val_of_single rfl i q
theorem lhs_pool_1 (i : S128x64.Idx) (q : dot_S10000x128_S10000x64_S128x64_0_0_1_1_n_n.contr.Idx) :
    (dot_S10000x128_S10000x64_S128x64_0_0_1_1_n_n.lhsIdx i q 1).val = (i 0).val := by
  unfold DotDims.lhsIdx
  rw [dif_neg (show ¬(1 : Fin S10000x128.rank) ∈ dot_S10000x128_S10000x64_S128x64_0_0_1_1_n_n.lhsBatch by decide), dif_pos (show (1 : Fin S10000x128.rank) ∈ dot_S10000x128_S10000x64_S128x64_0_0_1_1_n_n.lhsNonContracting by decide)]
  rfl
/-- … and the right operand at (contraction position, result column). -/
theorem rhs_pool_0 (i : S128x64.Idx) (q : dot_S10000x128_S10000x64_S128x64_0_0_1_1_n_n.contr.Idx) :
    (dot_S10000x128_S10000x64_S128x64_0_0_1_1_n_n.rhsIdx i q 0).val = (q ⟨0, by decide⟩).val :=
  dot_S10000x128_S10000x64_S128x64_0_0_1_1_n_n.rhsIdx_val_of_single rfl i q
theorem rhs_pool_1 (i : S128x64.Idx) (q : dot_S10000x128_S10000x64_S128x64_0_0_1_1_n_n.contr.Idx) :
    (dot_S10000x128_S10000x64_S128x64_0_0_1_1_n_n.rhsIdx i q 1).val = (i 1).val := by
  unfold DotDims.rhsIdx
  rw [dif_neg (show ¬(1 : Fin S10000x64.rank) ∈ dot_S10000x128_S10000x64_S128x64_0_0_1_1_n_n.rhsBatch by decide), dif_pos (show (1 : Fin S10000x64.rank) ∈ dot_S10000x128_S10000x64_S128x64_0_0_1_1_n_n.rhsNonContracting by decide)]
  rfl

/-- The pooling product onto a zero accumulator, at (row g, column cc): the sum over the block's rows r of
    left (r, g) times right (r, cc). -/
theorem matmul_pool (L : FVec Ideal S10000x128 .bf16) (R : FVec Ideal S10000x64 .bf16) (g : Fin 128) (cc : Fin 64) :
    matmul dot_S10000x128_S10000x64_S128x64_0_0_1_1_n_n none L R (constant (F := Ideal) S128x64 .f32 0x00000000#32) (ix2 g cc)
      = ∑ r : Fin 10000, L (ix2 r g) * R (ix2 r cc) := by
  simp only [matmul]
  rw [Ideal.matmul_constant_zero_apply, ← Equiv.sum_comp (ValueIdx.contrEquiv1 dot_S10000x128_S10000x64_S128x64_0_0_1_1_n_n 10000 rfl rfl).symm]
  refine Finset.sum_congr rfl fun k _ => ?_
  have hk := ValueIdx.contrEquiv1_symm_val dot_S10000x128_S10000x64_S128x64_0_0_1_1_n_n 10000 rfl rfl k
  have el : dot_S10000x128_S10000x64_S128x64_0_0_1_1_n_n.lhsIdx (ix2 g cc) ((ValueIdx.contrEquiv1 dot_S10000x128_S10000x64_S128x64_0_0_1_1_n_n 10000 rfl rfl).symm k) = ix2 k g := funext fun a => Fin.ext (by
    match a with
    | ⟨0, _⟩ => exact (lhs_pool_0 _ _).trans hk
    | ⟨1, _⟩ => exact lhs_pool_1 _ _)
  have er : dot_S10000x128_S10000x64_S128x64_0_0_1_1_n_n.rhsIdx (ix2 g cc) ((ValueIdx.contrEquiv1 dot_S10000x128_S10000x64_S128x64_0_0_1_1_n_n 10000 rfl rfl).symm k) = ix2 k cc := funext fun a => Fin.ext (by
    match a with
    | ⟨0, _⟩ => exact (rhs_pool_0 _ _).trans hk
    | ⟨1, _⟩ => exact rhs_pool_1 _ _)
  rw [el, er]

/-- A compared pair of words, widened and read as a number, is one when the words are equal and zero otherwise. -/
theorem indicator (a b : BitVec 32) :
    FloatOps.sitofp (F := Ideal) .f32 ((IntOp.cmpi .eq a b).setWidth 32) = if a = b then (1 : EReal) else 0 := by
  show (((((IntOp.cmpi .eq a b).setWidth 32).toInt : ℤ) : ℝ) : EReal) = _
  by_cases h : a = b
  · have e : IntOp.cmpi .eq a b = 1#1 := by simp [IntOp.cmpi, h]
    have n : ((1#1 : BitVec 1).setWidth 32).toInt = 1 := by decide
    rw [e, if_pos h, n]; simp
  · have hb : (a == b) = false := beq_eq_false_iff_ne.mpr h
    have e : IntOp.cmpi .eq a b = 0#1 := by simp [IntOp.cmpi, hb]
    have n : ((0#1 : BitVec 1).setWidth 32).toInt = 0 := by decide
    rw [e, if_neg h, n]; simp

/-- The one-hot matrix of a block of graph ids at (row r, graph g): one when row r's id word is the word of g. -/
theorem onehot_apply (x1 : Vec Ideal S10000x1 .i32) (r : Fin 10000) (g : Fin 128) :
    (truncf .bf16 (sitofp (F := Ideal) .f32 (extui 32 (cmpi .eq (broadcastTo S10000x128 (shapeCast S10000x1 x1 shapeCasts_S10000x1_S10000x1) broadcasts_S10000x1_S10000x128) (iota .tc S10000x128 32 [1] iota_S10000x128_d1_w32)) natLt_1_32)) bitsLt_bf16_f32 : FVec Ideal S10000x128 .bf16) (ix2 r g)
      = if x1 (ix2 r 0) = BitVec.ofNat 32 g.val then (1 : EReal) else 0 := by
  show FloatOps.sitofp (F := Ideal) .f32 ((IntOp.cmpi .eq (broadcastTo S10000x128 (shapeCast S10000x1 x1 shapeCasts_S10000x1_S10000x1) broadcasts_S10000x1_S10000x128 (ix2 r g)) (iota .tc S10000x128 32 [1] iota_S10000x128_d1_w32 (ix2 r g))).setWidth 32) = _
  rw [indicator, iota_single_apply, shapeCast_self, broadcastTo_apply x1 broadcasts_S10000x1_S10000x128 (ix2 r g) (ix2 r 0) (fun a => match a with
    | ⟨0, _⟩ => by show r.val = if (10000 : Nat) = 1 then 0 else r.val; rw [if_neg (by decide)]
    | ⟨1, _⟩ => by show (0 : Nat) = if (1 : Nat) = 1 then 0 else g.val; rw [if_pos rfl])]

/-- The update at (graph g, column cc): what the block held there plus the rows of the point's block whose id word is
    the word of g, in that column. A zero or one factor leaves any extended real zero or itself. -/
theorem pay_apply (x0 : Vec Ideal S10000x64 .f32) (x1 : Vec Ideal S10000x1 .i32) (acc : Vec Ideal S128x64 .f32)
    (g : Fin 128) (cc : Fin 64) :
    k4_pay2 (F := Ideal) x0 x1 acc (ix2 g cc)
      = acc (ix2 g cc) + ∑ r : Fin 10000, (if x1 (ix2 r 0) = BitVec.ofNat 32 g.val then x0 (ix2 r cc) else 0) := by
  unfold k4_pay2
  dsimp only
  rw [addf_apply, shapeCast_self, matmul_pool]
  refine congrArg (acc (ix2 g cc) + ·) (Finset.sum_congr rfl fun r _ => ?_)
  rw [onehot_apply, truncf_apply, shapeCast_self, ite_mul, one_mul, zero_mul]

/-- The block the first point stores before it accumulates is zero everywhere. -/
theorem pay1_apply (i : S128x64.Idx) : k4_pay1 (F := Ideal) i = 0 := by
  show Ideal.ofBits .f32 0x00000000#32 = 0
  exact Ideal.ofBits_zero_f32

end Payload

section Blocks
variable (V : Entry) (c : Dev nD)

/-- The node features the region finds (100000 nodes, 64 columns) and the graph id of every node beside them. -/
abbrev harr : Vec Ideal S100000x64 .f32 := V c main_v61
abbrev idarr : Vec Ideal S100000x1 .i32 := V c main_v62
/-- Their blocks at a point: rows [10000 t, 10000 t + 10000). -/
abbrev hblk (t : Fin cfg4.N) : Vec Ideal S10000x64 .f32 := iblk4 V c 0 t
abbrev idblk (t : Fin cfg4.N) : Vec Ideal S10000x1 .i32 := iblk4 V c 1 t

/-- Both input windows move down the rows with the point and stay on the one column block. -/
theorem idx_facts : ∀ t : Fin cfg4.N, win4_0.index t 0 = t.val ∧ win4_0.index t 1 = 0 ∧ win4_1.index t 0 = t.val ∧ win4_1.index t 1 = 0 :=
  (by decide +kernel : ∀ t : Fin grid4.N, win4_0.index t 0 = t.val ∧ win4_0.index t 1 = 0 ∧ win4_1.index t 0 = t.val ∧ win4_1.index t 1 = 0)

/-- Row r of the feature block at point t is row 10000 t + r of the array. -/
theorem hblk_apply (t : Fin cfg4.N) (r : Fin 10000) (cc : Fin 64) (hlt : 10000 * t.val + r.val < 100000) :
    hblk V c t (ix2 r cc) = harr V c (ix2 ⟨10000 * t.val + r.val, hlt⟩ cc) := by
  show iblk4 V c 0 t (ix2 r cc) = _
  unfold iblk4
  rw [View.read_apply]
  show harr V c _ = harr V c _
  refine congrArg (harr V c) (funext fun a => Fin.ext ?_)
  match a with
  | ⟨0, _⟩ => show win4_0.index t 0 * 10000 + 1 * r.val = 10000 * t.val + r.val; rw [(idx_facts t).1]; omega
  | ⟨1, _⟩ => show win4_0.index t 1 * 64 + 1 * cc.val = cc.val; rw [(idx_facts t).2.1]; omega

/-- Row r of the id block at point t is row 10000 t + r of the id column. -/
theorem idblk_apply (t : Fin cfg4.N) (r : Fin 10000) (hlt : 10000 * t.val + r.val < 100000) :
    idblk V c t (ix2 r 0) = idarr V c (ix2 ⟨10000 * t.val + r.val, hlt⟩ 0) := by
  show iblk4 V c 1 t (ix2 r 0) = _
  unfold iblk4
  rw [View.read_apply]
  show idarr V c _ = idarr V c _
  refine congrArg (idarr V c) (funext fun a => Fin.ext ?_)
  match a with
  | ⟨0, _⟩ => show win4_1.index t 0 * 10000 + 1 * r.val = 10000 * t.val + r.val; rw [(idx_facts t).2.2.1]; omega
  | ⟨1, _⟩ => show win4_1.index t 1 * 1 + 1 * (0 : Fin 1).val = (0 : Fin 1).val; rw [(idx_facts t).2.2.2]; omega

/-- Node e's share of entry (g, cc): its feature in column cc when its id word is the word of g, zero otherwise
    (and zero past the last node). -/
def term (g : Fin 128) (cc : Fin 64) (e : ℕ) : EReal :=
  if he : e < 100000 then (if idarr V c (ix2 ⟨e, he⟩ 0) = BitVec.ofNat 32 g.val then harr V c (ix2 ⟨e, he⟩ cc) else 0) else 0

/-- What a point adds to entry (g, cc) is the shares of the nodes of its block. -/
theorem point_sum (t : Fin cfg4.N) (g : Fin 128) (cc : Fin 64) :
    (∑ r : Fin 10000, (if idblk V c t (ix2 r 0) = BitVec.ofNat 32 g.val then hblk V c t (ix2 r cc) else 0))
      = ∑ r : Fin 10000, term V c g cc (10000 * t.val + r.val) := by
  have hN : t.val < 10 := lt_of_lt_of_eq t.isLt (show cfg4.N = 10 from N_4)
  refine Finset.sum_congr rfl fun r _ => ?_
  have hlt : 10000 * t.val + r.val < 100000 := by have := r.isLt; omega
  unfold term
  rw [dif_pos hlt, hblk_apply V c t r cc hlt, idblk_apply V c t r hlt]

/-- After point n the output block holds, at (g, cc), the shares of all nodes of the blocks 0 … n: at the first point the
    zero block plus that point's shares, at a later point what the point before left plus its own. -/
theorem outsAt_apply (g : Fin 128) (cc : Fin 64) : ∀ (n : ℕ) (hn : n < cfg4.N),
    outsAt4 V c n hn (ix2 g cc) = ∑ t ∈ Finset.range (n + 1), ∑ r : Fin 10000, term V c g cc (10000 * t + r.val)
  | 0, hn => by
    rw [outsAt4_A V c ⟨0, hn⟩ (Nat.zero_mod _)]
    refine (congrFun (out_A (F := Ideal) c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) ((hcond4_0 ⟨0, hn⟩).mpr (Nat.zero_mod _)) (hblk V c ⟨0, hn⟩) (idblk V c ⟨0, hn⟩)) (ix2 g cc)).trans ?_
    rw [pay_apply, pay1_apply, zero_add, point_sum, Finset.sum_range_one]
  | n + 1, hn => by
    have hN : cfg4.N = 10 := N_4
    have hB : ¬(⟨n + 1, hn⟩ : Fin cfg4.N).val % 10 = 0 := by dsimp only; omega
    rw [outsAt4_B V c ⟨n + 1, hn⟩ hB]
    refine (congrFun (out_B (F := Ideal) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (fun h => hB ((hcond4_0 ⟨n + 1, hn⟩).mp h)) (hblk V c ⟨n + 1, hn⟩) (idblk V c ⟨n + 1, hn⟩) (outsAt4 V c n (Nat.lt_of_succ_lt hn))) (ix2 g cc)).trans ?_
    rw [pay_apply, point_sum, outsAt_apply g cc n (Nat.lt_of_succ_lt hn), Finset.sum_range_succ _ (n + 1)]

end Blocks

section Final
variable (V : Entry) (c : Dev nD)

/-- What the output block holds after the last point. -/
abbrev result : Buf (Elt Ideal) ((c : Thread nD τ).loc main_v63) :=
  outsAt4 V c 9 (by rw [show cfg4.N = 10 from N_4]; decide)

/-- The one write-back, after the last point, writes that block; the block is the whole 128 x 64 array. -/
theorem flushed_eq (t : Fin cfg4.N) (hf : (cfg4.win 2).flush t = true) :
    (dat4 V c).flushed 2 t = ((cfg4.win 2).blk t).view.read (Elt Ideal) (result V c) := by
  have hN : cfg4.N = 10 := N_4
  have h9 : t.val = 9 := by have := (flush4_2 t).mp hf; have := t.isLt; omega
  obtain rfl : t = t4_9 := Fin.ext h9
  show (cfg4.win 2).cut (grid4.coords t4_9) ((dat4 V c).after 2 t4_9) = _
  rw [after4_2]
  have hz' : (fun a => win4_2.index t4_9 a * main_v63.ty.shape.size a) = fun _ => 0 := funext fun a => by fin_cases a <;> decide
  exact (Memref.read_access_unit_zero (Elt Ideal) main_v63 hz' (fun a => by rw [congrFun hz' a]; simp) (result V c)).symm

/-- So the array ends holding what the block held after the last point. -/
theorem final_o : (dat4 V c).arrAt 2 cfg4.N = result V c :=
  (dat4 V c).arrAt_eq_of_cover 2 (result V c) (flushed_eq V c) fun i =>
    ⟨t4_9, (flush4_2 t4_9).mpr rfl, by
      show i ∈ ((View.whole main_v63).slice (win4_2.rect t4_9)).set
      rw [View.set_slice_whole, Rect.mem_set_unit]
      intro a
      have h0 : (i 0 : Nat) < 128 := (i 0).isLt
      have h1 : (i 1 : Nat) < 64 := (i 1).isLt
      match a with
      | ⟨0, _⟩ => show win4_2.index t4_9 0 * win4_2.size 0 ≤ (i 0 : Nat) ∧ (i 0 : Nat) < win4_2.index t4_9 0 * win4_2.size 0 + win4_2.xsize (grid4.coords t4_9) 0
                  rw [show win4_2.index t4_9 0 * win4_2.size 0 = 0 from by decide +kernel, show win4_2.xsize (grid4.coords t4_9) 0 = 128 from by decide +kernel]; omega
      | ⟨1, _⟩ => show win4_2.index t4_9 1 * win4_2.size 1 ≤ (i 1 : Nat) ∧ (i 1 : Nat) < win4_2.index t4_9 1 * win4_2.size 1 + win4_2.xsize (grid4.coords t4_9) 1
                  rw [show win4_2.index t4_9 1 * win4_2.size 1 = 0 from by decide +kernel, show win4_2.xsize (grid4.coords t4_9) 1 = 64 from by decide +kernel]; omega⟩

end Final

/-- Pooling: if the region finds the reference's second hidden layer in its input array and the graph id of every
    node as a one-column matrix beside it, the sums it accumulates over its grid are the reference's per-graph sums. -/
theorem region4 (V : Entry) (c : Dev nD) (a0 : RArr ⟨2, ![100000, 128]⟩) (a1 : RIdx ⟨2, ![2, 3200000]⟩) (a2 : RIdx ⟨1, ![100000]⟩) (a3 : RArr ⟨2, ![128, 64]⟩) (a4 : RArr ⟨1, ![64]⟩) (a5 : RArr ⟨2, ![64, 64]⟩) (a6 : RArr ⟨1, ![64]⟩)
    (hh : V c main_v61 = val_main_v88 (F := Ideal) a0 a1 a3 a4 a5 a6)
    (hid : ∀ e : Fin 100000, V c main_v62 (ix2 e (0 : Fin 1)) = a2 (ix1 e)) :
    (dat4 V c).arrAt 2 cfg4.N = val_main_v91 (F := Ideal) a0 a1 a2 a3 a4 a5 a6 := by
  refine (final_o V c).trans (funext fun (i : S128x64.Idx) => ?_)
  obtain ⟨g, cc, rfl⟩ : ∃ (g : Fin 128) (cc : Fin 64), i = ix2 g cc := ⟨i 0, i 1, eq_ix2 i⟩
  show outsAt4 V c 9 _ (ix2 g cc) = _
  rw [outsAt_apply V c g cc 9]
  -- the ten blocks of ten thousand rows are the hundred thousand nodes
  refine (Cert.LibBlockSum.sum_blocks_nat (M := EReal) 10 10000 (term V c g cc)).symm.trans ?_
  show ∑ e : Fin 100000, term V c g cc e.val = _
  have hterm : ∀ e : Fin 100000, term V c g cc e.val
      = if idarr V c (ix2 e 0) = BitVec.ofNat 32 g.val then harr V c (ix2 e cc) else 0 :=
    fun e => by unfold term; rw [dif_pos e.isLt]
  refine (Finset.sum_congr rfl fun e _ => hterm e).trans ?_
  refine (Cert.LibBlockSum.sum_indicator _ _).trans ?_
  -- the reference: a segment sum into zeros, read at (g, cc)
  unfold val_main_v91
  refine Eq.trans ?_ (Cert.LibSegmentSum.scatterAdd_segRows (N := 128) (M := 100000) (D := 64) (w := 32)
    Cert.ReferenceIdeal.scatter_S128x64_S100000x1_S100000x64_1_0_0_1 rfl rfl rfl rfl _ _ _ g cc).symm
  rw [Cert.ReferenceIdeal.Read.val_main_v89_apply, Cert.ReferenceIdeal.Read.val_main_cst_20_apply]
  show _ = Ideal.ofBits .f32 0x00000000#32 + _
  rw [Ideal.ofBits_zero_f32, zero_add]
  refine Finset.sum_congr (Finset.filter_congr fun e _ => ?_) (fun e _ => ?_)
  · -- a node's id word is the word of g exactly when, read signed, it is g
    rw [Cert.ReferenceIdeal.Read.val_main_v90_apply]
    have hi : Cert.ReferenceIdeal.Read.idx_main_v90 (ix2 e (0 : Fin 1)) = ix1 e := funext fun a => match a with | ⟨0, _⟩ => rfl
    rw [hi]
    show V c main_v62 (ix2 e 0) = BitVec.ofNat 32 g.val ↔ (a2 (ix1 e)).toInt = (g.val : ℤ)
    rw [hid e, Cert.LibBlockSum.toInt_eq_iff _ g.val (by have := g.isLt; omega)]
  · show V c main_v61 (ix2 e cc) = _
    rw [hh]

end Cert.Bridge.Region4

end
-- ==== Proof.Region5.lean ====
import proofs.«409668_j5222680232280_2_alg».proof.Proof.Gen.KernelIdeal.Frame
import proofs.«409668_j5222680232280_2_alg».proof.Proof.RefRead
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

namespace Cert.Bridge.Region5

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.ReferenceIdeal.Read (val_main_v3 val_main_v6 val_main_v29 val_main_v30 val_main_v43 val_main_v47 val_main_v71 val_main_v84 val_main_v88 val_main_v91 val_main_v95 val_main_v115)

/-- The contents of a reference-side array of the given shape, at the ideal instance. -/
abbrev RArr (s : Shape) : Type := s.Idx → EReal
/-- The contents of a reference-side index array of the given shape. -/
abbrev RIdx (s : Shape) : Type := s.Idx → BitVec 32

/-- The TensorCore's buffer contents when a region is entered. -/
abbrev Entry : Type := (c : Dev nD) → (b : Ref sig .tc) → Buf (Elt Ideal) ((c : Thread nD τ).loc b)

/-! ## The body's arithmetic, stage by stage -/

/-- The node counts clamped below by one: `max(cnt, 1)`, a one-column matrix. -/
def clampedCounts (x1 : Vec Ideal S128x1 .f32) : FVec Ideal S128x1 .f32 :=
  maximumf (shapeCast S128x1 x1 shapeCasts_S128x1_S128x1) (broadcast S128x1 (Scalar.ofBits .f32 0x3F800000#32))

/-- The per-graph means: each row of sums divided by its clamped count. -/
def pooled (x0 : Vec Ideal S128x64 .f32) (x1 : Vec Ideal S128x1 .f32) : FVec Ideal S128x64 .f32 :=
  divf (shapeCast S128x64 x0 shapeCasts_S128x64_S128x64) (broadcastTo S128x64 (clampedCounts x1) broadcasts_S128x1_S128x64)

/-- The logits: the means times the weight matrix, plus the bias row under every row. -/
def logits (x0 : Vec Ideal S128x64 .f32) (x1 : Vec Ideal S128x1 .f32) (x2 : Vec Ideal S64x10 .f32) (x3 : Vec Ideal S1x10 .f32) :
    FVec Ideal S128x10 .f32 :=
  addf (matmul dot_S128x64_S64x10_S128x10_1_0_0_1_n_n none (truncf .bf16 (pooled x0 x1) bitsLt_bf16_f32) (truncf .bf16 x2 bitsLt_bf16_f32)
      (constant S128x10 .f32 0x00000000#32))
    (broadcastTo S128x10 (shapeCast S1x10 x3 shapeCasts_S1x10_S1x10) broadcasts_S1x10_S128x10)

/-- The row maxima of a 128 x 10 array, each joined once more with minus infinity. -/
def rowMax (L : FVec Ideal S128x10 .f32) : FVec Ideal S128 .f32 :=
  maximumf (broadcast S128 (Scalar.ofBits .f32 0xFF800000#32))
    (multiReduction .maximumf [1] S128 L 0xFF800000#32 reduces_S128x10_S128 (.inl rfl) rfl)

/-- The exponentials of the entries less their row's maximum. -/
def exps (L : FVec Ideal S128x10 .f32) : FVec Ideal S128x10 .f32 :=
  exp (subf L (broadcastTo S128x10 (shapeCast S128x1 (rowMax L) shapeCasts_S128_S128x1) broadcasts_S128x1_S128x10))

/-- The row sums of a 128 x 10 array. -/
def rowSum (E : FVec Ideal S128x10 .f32) : FVec Ideal S128 .f32 :=
  multiReduction .add [1] S128 E 0x00000000#32 reduces_S128x10_S128 (.inl rfl) rfl

/-- Each entry divided by its row's sum. -/
def normalized (E : FVec Ideal S128x10 .f32) : FVec Ideal S128x10 .f32 :=
  divf E (broadcastTo S128x10 (shapeCast S128x1 (rowSum E) shapeCasts_S128_S128x1) broadcasts_S128x1_S128x10)

/-- The body's one stored value is these stages composed (the counts first, then the sums, the weights and the bias). -/
theorem pay_eq_stages (x1 : Vec Ideal S128x1 .f32) (x0 : Vec Ideal S128x64 .f32) (x2 : Vec Ideal S64x10 .f32) (x3 : Vec Ideal S1x10 .f32) :
    k5_pay1 x1 x0 x2 x3 = normalized (exps (logits x0 x1 x2 x3)) := rfl

/-! ## Two layout operations read at coordinates -/

/-- A one-column matrix broadcast across columns reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector cast to a one-column matrix reads, at `(p, u)`, the vector's entry `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-! ## The stages read at coordinates -/

/-- A clamped count `(g, u)`: the count joined with one. -/
theorem clampedCounts_apply (x1 : Vec Ideal S128x1 .f32) (g : Fin 128) (u : Fin 1) :
    clampedCounts x1 (ix2 g u) = max (x1 (ix2 g u)) (Ideal.ofBits .f32 0x3F800000#32) := by
  unfold clampedCounts
  rw [shapeCast_self]
  rfl

/-- The mean's entry `(g, k)`: the sum's entry over the clamped count of graph `g`. -/
theorem pooled_apply (x0 : Vec Ideal S128x64 .f32) (x1 : Vec Ideal S128x1 .f32) (g : Fin 128) (k : Fin 64) :
    pooled x0 x1 (ix2 g k) = Ideal.div (x0 (ix2 g k)) (max (x1 (ix2 g (0 : Fin 1))) (Ideal.ofBits .f32 0x3F800000#32)) := by
  unfold pooled
  rw [divf_apply, shapeCast_self, broadcastTo_a1_ab_apply, clampedCounts_apply]

/-! ### The product with the weight matrix: the dimension numbers' operand indices, axis by axis -/

/-- The left operand's row is the result's row. -/
theorem lhsAxis0 (i : S128x10.Idx) (q : dot_S128x64_S64x10_S128x10_1_0_0_1_n_n.contr.Idx) :
    (dot_S128x64_S64x10_S128x10_1_0_0_1_n_n.lhsIdx i q 0).val = (i 0).val := by
  unfold DotDims.lhsIdx
  rw [dif_neg (show ¬(0 : Fin S128x64.rank) ∈ dot_S128x64_S64x10_S128x10_1_0_0_1_n_n.lhsBatch by decide), dif_pos (show (0 : Fin S128x64.rank) ∈ dot_S128x64_S64x10_S128x10_1_0_0_1_n_n.lhsNonContracting by decide)]
  rfl
/-- The left operand's column is the contraction coordinate. -/
theorem lhsAxis1 (i : S128x10.Idx) (q : dot_S128x64_S64x10_S128x10_1_0_0_1_n_n.contr.Idx) :
    (dot_S128x64_S64x10_S128x10_1_0_0_1_n_n.lhsIdx i q 1).val = (q ⟨0, by decide⟩).val :=
  dot_S128x64_S64x10_S128x10_1_0_0_1_n_n.lhsIdx_val_of_single rfl i q
/-- The right operand's row is the contraction coordinate. -/
theorem rhsAxis0 (i : S128x10.Idx) (q : dot_S128x64_S64x10_S128x10_1_0_0_1_n_n.contr.Idx) :
    (dot_S128x64_S64x10_S128x10_1_0_0_1_n_n.rhsIdx i q 0).val = (q ⟨0, by decide⟩).val :=
  dot_S128x64_S64x10_S128x10_1_0_0_1_n_n.rhsIdx_val_of_single rfl i q
/-- The right operand's column is the result's column. -/
theorem rhsAxis1 (i : S128x10.Idx) (q : dot_S128x64_S64x10_S128x10_1_0_0_1_n_n.contr.Idx) :
    (dot_S128x64_S64x10_S128x10_1_0_0_1_n_n.rhsIdx i q 1).val = (i 1).val := by
  unfold DotDims.rhsIdx
  rw [dif_neg (show ¬(1 : Fin S64x10.rank) ∈ dot_S128x64_S64x10_S128x10_1_0_0_1_n_n.rhsBatch by decide), dif_pos (show (1 : Fin S64x10.rank) ∈ dot_S128x64_S64x10_S128x10_1_0_0_1_n_n.rhsNonContracting by decide)]
  rfl

/-- The matrix unit's product onto a zero accumulator, at `(g, j)`: the sum over the 64 features of row `g` of the left
    operand against column `j` of the right. -/
theorem product_apply (P : FVec Ideal S128x64 .bf16) (W : FVec Ideal S64x10 .bf16) (g : Fin 128) (j : Fin 10) :
    matmul dot_S128x64_S64x10_S128x10_1_0_0_1_n_n none P W (constant S128x10 .f32 0x00000000#32) (ix2 g j)
      = ∑ k : Fin 64, P (ix2 g k) * W (ix2 k j) := by
  simp only [matmul]
  rw [Ideal.matmul_constant_zero_apply, ← Equiv.sum_comp (ValueIdx.contrEquiv1 dot_S128x64_S64x10_S128x10_1_0_0_1_n_n 64 rfl rfl).symm]
  refine Finset.sum_congr rfl fun k _ => ?_
  have hk := ValueIdx.contrEquiv1_symm_val dot_S128x64_S64x10_S128x10_1_0_0_1_n_n 64 rfl rfl k
  have el : dot_S128x64_S64x10_S128x10_1_0_0_1_n_n.lhsIdx (ix2 g j) ((ValueIdx.contrEquiv1 dot_S128x64_S64x10_S128x10_1_0_0_1_n_n 64 rfl rfl).symm k) = ix2 g k := funext fun a => Fin.ext (by
    match a with
    | ⟨0, _⟩ => exact lhsAxis0 _ _
    | ⟨1, _⟩ => exact (lhsAxis1 _ _).trans hk)
  have er : dot_S128x64_S64x10_S128x10_1_0_0_1_n_n.rhsIdx (ix2 g j) ((ValueIdx.contrEquiv1 dot_S128x64_S64x10_S128x10_1_0_0_1_n_n 64 rfl rfl).symm k) = ix2 k j := funext fun a => Fin.ext (by
    match a with
    | ⟨0, _⟩ => exact (rhsAxis0 _ _).trans hk
    | ⟨1, _⟩ => exact rhsAxis1 _ _)
  rw [el, er]

/-- A logit `(g, j)`: the mean of graph `g` against column `j` of the weights, plus the bias of class `j`. -/
theorem logits_apply (x0 : Vec Ideal S128x64 .f32) (x1 : Vec Ideal S128x1 .f32) (x2 : Vec Ideal S64x10 .f32) (x3 : Vec Ideal S1x10 .f32)
    (g : Fin 128) (j : Fin 10) :
    logits x0 x1 x2 x3 (ix2 g j) = (∑ k : Fin 64, pooled x0 x1 (ix2 g k) * x2 (ix2 k j)) + x3 (ix2 (0 : Fin 1) j) := by
  unfold logits
  rw [addf_apply, product_apply, shapeCast_self, broadcastTo_1b_ab_apply]
  rfl

/-- The joined row maximum of graph `g`. -/
theorem rowMax_apply (L : FVec Ideal S128x10 .f32) (g : Fin 128) :
    rowMax L (ix1 g) = max (Ideal.ofBits .f32 0xFF800000#32)
      (multiReduction (F := Ideal) .maximumf [1] S128 L 0xFF800000#32 reduces_S128x10_S128 (.inl rfl) rfl (ix1 g)) := rfl

/-- An exponential `(g, j)`: of the entry less the joined maximum of row `g`. -/
theorem exps_apply (L : FVec Ideal S128x10 .f32) (g : Fin 128) (j : Fin 10) :
    exps L (ix2 g j) = Ideal.exp (L (ix2 g j) - rowMax L (ix1 g)) := by
  unfold exps
  show Ideal.exp (L (ix2 g j) - broadcastTo S128x10 (shapeCast S128x1 (rowMax L) shapeCasts_S128_S128x1) broadcasts_S128x1_S128x10 (ix2 g j)) = _
  rw [broadcastTo_a1_ab_apply, shapeCast_a_a1_apply]

/-- The sum of row `g`: over its ten columns. -/
theorem rowSum_apply (E : FVec Ideal S128x10 .f32) (g : Fin 128) :
    rowSum E (ix1 g) = ∑ j : Fin 10, E (ix2 g j) := by
  unfold rowSum
  refine (Ideal.multiReduction_add_single E 0x00000000#32 reduces_S128x10_S128 _ _ (ix1 g)).trans ?_
  refine Finset.sum_congr rfl fun j _ => congrArg E (funext fun a => Fin.ext (by
    match a with
    | ⟨0, _⟩ => rfl
    | ⟨1, _⟩ => rfl))

/-- A normalized entry `(g, j)`: the entry over the sum of row `g`. -/
theorem normalized_apply (E : FVec Ideal S128x10 .f32) (g : Fin 128) (j : Fin 10) :
    normalized E (ix2 g j) = Ideal.div (E (ix2 g j)) (rowSum E (ix1 g)) := by
  unfold normalized
  rw [divf_apply, broadcastTo_a1_ab_apply, shapeCast_a_a1_apply]

/-- The row maxima taken by the vector unit are the host's row maxima of the same array: both fold `max` from the
    minus-infinity word over the entries of the row. -/
theorem rowMaxima_eq (X : FVec Ideal S128x10 .f32) :
    multiReduction (F := Ideal) .maximumf [1] S128 X 0xFF800000#32 reduces_S128x10_S128 (.inl rfl) rfl
      = Host.reduce FloatOps.maximumf X (Cert.ReferenceIdeal.Read.val_main_cst_24 (F := Ideal)) Cert.ReferenceIdeal.Gen.reducesTo_S128x10_S128_d1 Cert.ReferenceIdeal.Gen.h_S_ := by
  funext j
  refine (multiReduction_maximumf_eq_fold X _ _ _ _ j).trans ?_
  refine Eq.trans ?_ (Host.reduce_eq_fold FloatOps.maximumf X _ _ _ j).symm
  rfl

/-! ## The reference's stages read at coordinates, and the two sides joined -/

section Reference

open Cert.ReferenceIdeal.Read (val_main_v96_apply val_main_cst_23_apply val_main_v97 val_main_v97_apply val_main_v98_apply idx_main_v98
  val_main_v99_apply idx_main_v99 val_main_v100 val_main_v100_apply val_main_v101_apply lidx_main_v101 ridx_main_v101
  val_main_v102_apply idx_main_v102 val_main_v103_apply idx_main_v103 val_main_v104 val_main_v104_apply val_main_cst_24 val_main_v105
  val_main_cst_25_apply val_main_v106_apply val_main_v107 val_main_v107_apply val_main_v108_apply idx_main_v108 val_main_v109_apply
  idx_main_v109 val_main_v110_apply val_main_v111 val_main_v111_apply val_main_cst_26_apply val_main_v112 val_main_v112_apply
  idx_main_v112 val_main_v113_apply idx_main_v113 val_main_v114_apply idx_main_v114 val_main_v115_apply)

variable (a0 : RArr ⟨2, ![100000, 128]⟩) (a1 : RIdx ⟨2, ![2, 3200000]⟩) (a2 : RIdx ⟨1, ![100000]⟩) (a3 : RArr ⟨2, ![128, 64]⟩)
  (a4 : RArr ⟨1, ![64]⟩) (a5 : RArr ⟨2, ![64, 64]⟩) (a6 : RArr ⟨1, ![64]⟩) (a7 : RArr ⟨2, ![64, 10]⟩) (a8 : RArr ⟨1, ![10]⟩)

/-- The reference's mean `(g, k)`: the sum's entry over the count of graph `g` clamped below by one. -/
theorem ref_pooled_apply (g : Fin 128) (k : Fin 64) :
    val_main_v100 (F := Ideal) a0 a1 a2 a3 a4 a5 a6 (ix2 g k)
      = Ideal.div (val_main_v91 (F := Ideal) a0 a1 a2 a3 a4 a5 a6 (ix2 g k))
          (max (val_main_v95 (F := Ideal) a2 (ix1 g)) (Ideal.ofBits .f32 0x3F800000#32)) := by
  rw [val_main_v100_apply, val_main_v99_apply, val_main_v98_apply, val_main_v97_apply, val_main_v96_apply, val_main_cst_23_apply]
  have e : idx_main_v98 (idx_main_v99 (ix2 g k)) = ix1 g := funext fun a => by match a with | ⟨0, _⟩ => rfl
  rw [e]
  rfl

/-- The reference's logit `(g, j)`. -/
theorem ref_logits_apply (g : Fin 128) (j : Fin 10) :
    val_main_v104 (F := Ideal) a0 a1 a2 a3 a4 a5 a6 a7 a8 (ix2 g j)
      = (∑ k : Fin 64, val_main_v100 (F := Ideal) a0 a1 a2 a3 a4 a5 a6 (ix2 g k) * a7 (ix2 k j)) + a8 (ix1 j) := by
  rw [val_main_v104_apply, val_main_v101_apply, val_main_v103_apply, val_main_v102_apply]
  have e : idx_main_v102 (idx_main_v103 (ix2 g j)) = ix1 j := funext fun a => by match a with | ⟨0, _⟩ => rfl
  rw [e]
  refine congrArg (· + a8 (ix1 j)) (Finset.sum_congr rfl fun k _ => ?_)
  have el : lidx_main_v101 (ix2 g j) k = ix2 g k := funext fun a => by match a with | ⟨0, _⟩ => rfl | ⟨1, _⟩ => rfl
  have er : ridx_main_v101 (ix2 g j) k = ix2 k j := funext fun a => by match a with | ⟨0, _⟩ => rfl | ⟨1, _⟩ => rfl
  rw [el, er]

/-- The reference's joined row maximum of graph `g`: minus infinity joined with the host's row maximum of the logits. -/
theorem ref_rowMax_apply (g : Fin 128) :
    val_main_v107 (F := Ideal) a0 a1 a2 a3 a4 a5 a6 a7 a8 (ix1 g)
      = max (Ideal.ofBits .f32 0xFF800000#32)
          (Host.reduce FloatOps.maximumf (val_main_v104 (F := Ideal) a0 a1 a2 a3 a4 a5 a6 a7 a8) (val_main_cst_24 (F := Ideal))
            Cert.ReferenceIdeal.Gen.reducesTo_S128x10_S128_d1 Cert.ReferenceIdeal.Gen.h_S_ (ix1 g)) := by
  rw [val_main_v107_apply, val_main_v106_apply, val_main_cst_25_apply]
  rfl

/-- The body's joined row maxima of the reference's logits are the reference's. -/
theorem rowMax_ref (g : Fin 128) :
    rowMax (val_main_v104 (F := Ideal) a0 a1 a2 a3 a4 a5 a6 a7 a8) (ix1 g) = val_main_v107 (F := Ideal) a0 a1 a2 a3 a4 a5 a6 a7 a8 (ix1 g) := by
  rw [rowMax_apply, ref_rowMax_apply, rowMaxima_eq]

/-- The reference's exponential `(g, j)`. -/
theorem ref_exps_apply (g : Fin 128) (j : Fin 10) :
    val_main_v111 (F := Ideal) a0 a1 a2 a3 a4 a5 a6 a7 a8 (ix2 g j)
      = Ideal.exp (val_main_v104 (F := Ideal) a0 a1 a2 a3 a4 a5 a6 a7 a8 (ix2 g j) - val_main_v107 (F := Ideal) a0 a1 a2 a3 a4 a5 a6 a7 a8 (ix1 g)) := by
  rw [val_main_v111_apply, val_main_v110_apply, val_main_v109_apply, val_main_v108_apply]
  have e : idx_main_v108 (idx_main_v109 (ix2 g j)) = ix1 g := funext fun a => by match a with | ⟨0, _⟩ => rfl
  rw [e, Ideal.hostUnary_exp_def, Ideal.subf_def]

/-- The reference's sum of row `g` of the exponentials (its initial value is the zero word). -/
theorem ref_rowSum_apply (g : Fin 128) :
    val_main_v112 (F := Ideal) a0 a1 a2 a3 a4 a5 a6 a7 a8 (ix1 g) = ∑ j : Fin 10, val_main_v111 (F := Ideal) a0 a1 a2 a3 a4 a5 a6 a7 a8 (ix2 g j) := by
  rw [val_main_v112_apply, val_main_cst_26_apply]
  show Ideal.ofBits .f32 0x00000000#32 + _ = _
  rw [Ideal.ofBits_zero_f32, zero_add]
  refine Finset.sum_congr rfl fun j _ => congrArg _ (funext fun a => by match a with | ⟨0, _⟩ => rfl | ⟨1, _⟩ => rfl)

/-- The reference's result `(g, j)`: the exponential over the sum of row `g`. -/
theorem ref_result_apply (g : Fin 128) (j : Fin 10) :
    val_main_v115 (F := Ideal) a0 a1 a2 a3 a4 a5 a6 a7 a8 (ix2 g j)
      = Ideal.div (val_main_v111 (F := Ideal) a0 a1 a2 a3 a4 a5 a6 a7 a8 (ix2 g j)) (val_main_v112 (F := Ideal) a0 a1 a2 a3 a4 a5 a6 a7 a8 (ix1 g)) := by
  rw [val_main_v115_apply, val_main_v114_apply, val_main_v113_apply]
  have e : idx_main_v113 (idx_main_v114 (ix2 g j)) = ix1 g := funext fun a => by match a with | ⟨0, _⟩ => rfl
  rw [e]
  rfl

/-- From blocks that hold the reference's sums, counts, weights and bias, the body's logits are the reference's. -/
theorem logits_eq (x0 : Vec Ideal S128x64 .f32) (x1 : Vec Ideal S128x1 .f32) (x2 : Vec Ideal S64x10 .f32) (x3 : Vec Ideal S1x10 .f32)
    (hs : x0 = val_main_v91 (F := Ideal) a0 a1 a2 a3 a4 a5 a6)
    (hc : ∀ g : Fin 128, x1 (ix2 g (0 : Fin 1)) = val_main_v95 (F := Ideal) a2 (ix1 g))
    (hw : x2 = a7)
    (hb : ∀ j : Fin 10, x3 (ix2 (0 : Fin 1) j) = a8 (ix1 j)) :
    logits x0 x1 x2 x3 = val_main_v104 (F := Ideal) a0 a1 a2 a3 a4 a5 a6 a7 a8 := by
  funext i
  obtain ⟨g, j, rfl⟩ : ∃ (g : Fin 128) (j : Fin 10), i = ix2 g j := ⟨i 0, i 1, eq_ix2 i⟩
  rw [logits_apply, ref_logits_apply, hb j]
  refine congrArg (· + a8 (ix1 j)) (Finset.sum_congr rfl fun k _ => ?_)
  rw [pooled_apply, ref_pooled_apply, hc g, hs, hw]

/-- The body's exponentials of the reference's logits are the reference's exponentials. -/
theorem exps_eq :
    exps (val_main_v104 (F := Ideal) a0 a1 a2 a3 a4 a5 a6 a7 a8) = val_main_v111 (F := Ideal) a0 a1 a2 a3 a4 a5 a6 a7 a8 := by
  funext i
  obtain ⟨g, j, rfl⟩ : ∃ (g : Fin 128) (j : Fin 10), i = ix2 g j := ⟨i 0, i 1, eq_ix2 i⟩
  rw [exps_apply, ref_exps_apply, rowMax_ref]

/-- The body's normalization of the reference's exponentials is the reference's result. -/
theorem normalized_eq :
    normalized (val_main_v111 (F := Ideal) a0 a1 a2 a3 a4 a5 a6 a7 a8) = val_main_v115 (F := Ideal) a0 a1 a2 a3 a4 a5 a6 a7 a8 := by
  funext i
  obtain ⟨g, j, rfl⟩ : ∃ (g : Fin 128) (j : Fin 10), i = ix2 g j := ⟨i 0, i 1, eq_ix2 i⟩
  rw [normalized_apply, rowSum_apply, ref_result_apply, ref_rowSum_apply]

/-- THE BODY'S STORED VALUE, from blocks that hold the reference's sums, counts, weights and bias, is the reference's result. -/
theorem pay_eq_reference (x0 : Vec Ideal S128x64 .f32) (x1 : Vec Ideal S128x1 .f32) (x2 : Vec Ideal S64x10 .f32) (x3 : Vec Ideal S1x10 .f32)
    (hs : x0 = val_main_v91 (F := Ideal) a0 a1 a2 a3 a4 a5 a6)
    (hc : ∀ g : Fin 128, x1 (ix2 g (0 : Fin 1)) = val_main_v95 (F := Ideal) a2 (ix1 g))
    (hw : x2 = a7)
    (hb : ∀ j : Fin 10, x3 (ix2 (0 : Fin 1) j) = a8 (ix1 j)) :
    k5_pay1 x1 x0 x2 x3 = val_main_v115 (F := Ideal) a0 a1 a2 a3 a4 a5 a6 a7 a8 := by
  rw [pay_eq_stages, logits_eq a0 a1 a2 a3 a4 a5 a6 a7 a8 x0 x1 x2 x3 hs hc hw hb, exps_eq, normalized_eq]

end Reference

/-! ## From the one point's block to the array -/

/-- The zero offsets on both axes, however the zeros are spelt. -/
theorem zeroOffsets : (![0, 0] : Fin 2 → Nat) = fun _ => 0 := funext fun a => by fin_cases a <;> rfl

/-- The printed index maps over the grid: every window's block sits at block index zero on both axes. -/
theorem blockIndex_zero : ∀ t : Fin cfg5.N,
    win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

section Blocks
variable (V : Entry) (c : Dev nD)

/-- The block of the sums is the whole array of sums: a block's coordinate is index times size plus the coordinate
    inside the block, and the index is zero. -/
theorem block_sums (t : Fin cfg5.N) : iblk5 V c 0 t = V c main_v63 := by
  obtain ⟨e0, e1, -⟩ := blockIndex_zero t
  funext y
  show V c main_v63 (((cfg5.win 0).blk t).view.emb y) = V c main_v63 y
  refine congrArg _ (funext fun a => Fin.ext ?_)
  match a with
  | ⟨0, _⟩ => show win5_0.index t (0 : Fin 2) * 128 + 1 * (y 0).val = (y 0).val; rw [e0]; omega
  | ⟨1, _⟩ => show win5_0.index t (1 : Fin 2) * 64 + 1 * (y 1).val = (y 1).val; rw [e1]; omega

/-- The block of the counts is the whole one-column matrix of counts. -/
theorem block_counts (t : Fin cfg5.N) : iblk5 V c 1 t = V c main_v68 := by
  obtain ⟨-, -, e0, e1, -⟩ := blockIndex_zero t
  funext y
  show V c main_v68 (((cfg5.win 1).blk t).view.emb y) = V c main_v68 y
  refine congrArg _ (funext fun a => Fin.ext ?_)
  match a with
  | ⟨0, _⟩ => show win5_1.index t (0 : Fin 2) * 128 + 1 * (y 0).val = (y 0).val; rw [e0]; omega
  | ⟨1, _⟩ => show win5_1.index t (1 : Fin 2) * 1 + 1 * (y 1).val = (y 1).val; rw [e1]; omega

/-- The block of the weights is the whole weight matrix. -/
theorem block_weights (t : Fin cfg5.N) : iblk5 V c 2 t = V c main_arg7 := by
  obtain ⟨-, -, -, -, e0, e1, -⟩ := blockIndex_zero t
  funext y
  show V c main_arg7 (((cfg5.win 2).blk t).view.emb y) = V c main_arg7 y
  refine congrArg _ (funext fun a => Fin.ext ?_)
  match a with
  | ⟨0, _⟩ => show win5_2.index t (0 : Fin 2) * 64 + 1 * (y 0).val = (y 0).val; rw [e0]; omega
  | ⟨1, _⟩ => show win5_2.index t (1 : Fin 2) * 10 + 1 * (y 1).val = (y 1).val; rw [e1]; omega

/-- The block of the bias is the whole one-row matrix of the bias. -/
theorem block_bias (t : Fin cfg5.N) : iblk5 V c 3 t = V c main_v69 := by
  obtain ⟨-, -, -, -, -, -, e0, e1, -⟩ := blockIndex_zero t
  funext y
  show V c main_v69 (((cfg5.win 3).blk t).view.emb y) = V c main_v69 y
  refine congrArg _ (funext fun a => Fin.ext ?_)
  match a with
  | ⟨0, _⟩ => show win5_3.index t (0 : Fin 2) * 1 + 1 * (y 0).val = (y 0).val; rw [e0]; omega
  | ⟨1, _⟩ => show win5_3.index t (1 : Fin 2) * 10 + 1 * (y 1).val = (y 1).val; rw [e1]; omega

end Blocks

/-- An index of the result array is in a point's block iff each coordinate is in the block's range on its axis. -/
theorem mem_resultBlock (t : Fin cfg5.N) (i : S128x10.Idx) :
    i ∈ ((cfg5.win 4).blk t).view.set ↔ ∀ a : Fin 2, win5_4.index t a * S128x10.size a ≤ (i a).val ∧ (i a).val < win5_4.index t a * S128x10.size a + S128x10.size a := by
  show i ∈ ((View.whole main_v70).slice (win5_4.rect t)).set ↔ _
  rw [View.set_slice_whole, Rect.mem_set_unit]
  exact Iff.rfl

/-- Mean, linear layer and softmax: if the region finds the reference's per-graph sums, the per-graph node counts as a
    one-column matrix, the last weight matrix and the last bias as a one-row matrix, it leaves the reference's result. -/
theorem region5 (V : Entry) (c : Dev nD) (a0 : RArr ⟨2, ![100000, 128]⟩) (a1 : RIdx ⟨2, ![2, 3200000]⟩) (a2 : RIdx ⟨1, ![100000]⟩) (a3 : RArr ⟨2, ![128, 64]⟩) (a4 : RArr ⟨1, ![64]⟩) (a5 : RArr ⟨2, ![64, 64]⟩) (a6 : RArr ⟨1, ![64]⟩) (a7 : RArr ⟨2, ![64, 10]⟩) (a8 : RArr ⟨1, ![10]⟩)
    (hs : V c main_v63 = val_main_v91 (F := Ideal) a0 a1 a2 a3 a4 a5 a6)
    (hc : ∀ g : Fin 128, V c main_v68 (ix2 g (0 : Fin 1)) = val_main_v95 (F := Ideal) a2 (ix1 g))
    (hw : V c main_arg7 = a7)
    (hb : ∀ j : Fin 10, V c main_v69 (ix2 (0 : Fin 1) j) = a8 (ix1 j)) :
    (dat5 V c).arrAt 4 cfg5.N = val_main_v115 (F := Ideal) a0 a1 a2 a3 a4 a5 a6 a7 a8 := by
  refine (dat5 V c).arrAt_eq_of_cover 4 (val_main_v115 (F := Ideal) a0 a1 a2 a3 a4 a5 a6 a7 a8) (fun t _ => ?_) (fun i => ?_)
  · -- what the one point writes back is the whole result, read through its block
    show (cfg5.win 4).cut (grid5.coords t) ((dat5 V c).after 4 t) = _
    rw [after5_4]
    unfold out5_4
    rw [View.canon_unit_zero zeroOffsets]
    simp only [View.ld_unit_zero (S := S128x1) zeroOffsets, View.ld_unit_zero (S := S128x64) zeroOffsets,
      View.ld_unit_zero (S := S64x10) zeroOffsets, View.ld_unit_zero (S := S1x10) zeroOffsets]
    rw [block_sums V c t, block_counts V c t, block_weights V c t, block_bias V c t,
      pay_eq_reference a0 a1 a2 a3 a4 a5 a6 a7 a8 _ _ _ _ hs hc hw hb]
    obtain ⟨-, -, -, -, -, -, -, -, e0, e1⟩ := blockIndex_zero t
    funext y
    show val_main_v115 (F := Ideal) a0 a1 a2 a3 a4 a5 a6 a7 a8 y
      = val_main_v115 (F := Ideal) a0 a1 a2 a3 a4 a5 a6 a7 a8 (((cfg5.win 4).blk t).view.emb y)
    refine congrArg _ (funext fun a => Fin.ext ?_)
    match a with
    | ⟨0, _⟩ => show (y 0).val = win5_4.index t (0 : Fin 2) * 128 + 1 * (y 0).val; rw [e0]; omega
    | ⟨1, _⟩ => show (y 1).val = win5_4.index t (1 : Fin 2) * 10 + 1 * (y 1).val; rw [e1]; omega
  · -- the one point's block is the whole array
    refine ⟨t5_0, flush5_4 _, ?_⟩
    rw [mem_resultBlock]
    obtain ⟨-, -, -, -, -, -, -, -, e0, e1⟩ := blockIndex_zero t5_0
    intro a
    match a with
    | ⟨0, _⟩ =>
      show win5_4.index t5_0 (0 : Fin 2) * 128 ≤ (i 0).val ∧ (i 0).val < win5_4.index t5_0 (0 : Fin 2) * 128 + 128
      have hi : (i 0).val < 128 := (i 0).isLt
      rw [e0]; omega
    | ⟨1, _⟩ =>
      show win5_4.index t5_0 (1 : Fin 2) * 10 ≤ (i 1).val ∧ (i 1).val < win5_4.index t5_0 (1 : Fin 2) * 10 + 10
      have hi : (i 1).val < 10 := (i 1).isLt
      rw [e1]; omega

end Cert.Bridge.Region5

end
-- ==== Proof.FoldB.lean ====
import proofs.«409668_j5222680232280_2_alg».proof.Proof.Gen.KernelIdeal.Frame
import proofs.«409668_j5222680232280_2_alg».proof.Proof.RefRead
import Idealize.ShloMosaic.Lib.ValueIdx
import Idealize.ShloMosaic.Lib.ValueLayout
import Idealize.ShloMosaic.Lib.Pipeline.Value
import Idealize.ShloMosaic.Lib.StableHlo.Run
import proofs.«409668_j5222680232280_2_alg».proof.Proof.FoldA
import proofs.«409668_j5222680232280_2_alg».proof.Proof.Region3
import proofs.«409668_j5222680232280_2_alg».proof.Proof.Region4
import proofs.«409668_j5222680232280_2_alg».proof.Proof.Region5

set_option maxRecDepth 16384

noncomputable section

namespace Cert.Bridge.FoldB

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.ReferenceIdeal.Read (val_main_v3 val_main_v6 val_main_v29 val_main_v30 val_main_v43 val_main_v47 val_main_v71 val_main_v84 val_main_v88 val_main_v91 val_main_v95 val_main_v115)
open Cert.Bridge.FoldA (A0 A1 A2 A3 A4 A5 A6 A7 A8)

/-- The contents of a reference-side array of the given shape, at the ideal instance. -/
abbrev RArr (s : Shape) : Type := s.Idx → EReal
/-- The contents of a reference-side index array of the given shape. -/
abbrev RIdx (s : Shape) : Type := s.Idx → BitVec 32

/-- The TensorCore's buffer contents when a region is entered. -/
abbrev Entry : Type := (c : Dev nD) → (b : Ref sig .tc) → Buf (Elt Ideal) ((c : Thread nD τ).loc b)

variable (m : (ℓ : Loc nD τ sig) → Buf (Elt Ideal) ℓ) (ρ : Dev nD → PrngReg) (c : Dev nD)

/-! # From the exit of the third region to the result

The run's remaining stretches, read one boundary at a time. Each host stretch is the reference's own operations on
the buffers the previous boundary left, so a buffer it writes is the reference's stage of the same name; each region's
output is the reference's stage by that region's value lemma; the small reshaped inputs (a bias as one row, the graph
ids and the counts as one column) are read entry by entry. -/

section Again
open Cert.ReferenceIdeal.Read
variable {F : FTy → Type} [FloatOps F]

/-- The second layer recomputes the edge weights: the same operations, in the same order, on the same edge list
    (degrees by a scatter-add of ones over the targets, their inverse square roots where positive, gathered at both
    ends of every edge and multiplied). -/
theorem norm_again (x1 : (⟨Cert.ReferenceIdeal.S2x3200000, .i32⟩ : BufTy).Contents (Elt F)) :
    val_main_v70 (F := F) x1 = val_main_v29 (F := F) x1 := by
  unfold val_main_v70 val_main_v29
  unfold val_main_v62 val_main_v69 val_main_v21 val_main_v28
  unfold val_main_v55 val_main_v61 val_main_v68 val_main_v14 val_main_v20 val_main_v27
  unfold val_main_v53 val_main_v54 val_main_call2_v1 val_main_v60 val_main_v67 val_main_v12 val_main_v13 val_main_call0_v1 val_main_v19 val_main_v26
  unfold val_main_v51 val_main_v52 val_main_call2_v0 val_main_v57 val_main_v59 val_main_v64 val_main_v66
    val_main_v10 val_main_v11 val_main_call0_v0 val_main_v16 val_main_v18 val_main_v23 val_main_v25
  unfold val_main_v49 val_main_v50 val_main_v48 val_main_cst_11 val_main_cst_12 val_main_v56 val_main_v58 val_main_v63 val_main_v65
    val_main_v8 val_main_v9 val_main_v7 val_main_cst_1 val_main_cst_2 val_main_v15 val_main_v17 val_main_v22 val_main_v24
  unfold val_main_cst_10 val_main_cst_9 val_main_c_13 val_main_c_14 val_main_c_15 val_main_c_16
    val_main_cst_0 val_main_cst val_main_c val_main_c_3 val_main_c_4 val_main_c_5
  rfl

end Again

/-- A vector cast to one column reads, at `(i, u)`, the vector at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Closes `StableHlo.after ops V b = V b` for a literal stretch `ops` none of whose operations writes `b`:
    each operation writes one buffer, and that buffer is another reference. -/
local macro "carry_through" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The fourth region's entry: the second layer's aggregate and its bias -/

set_option maxHeartbeats 1000000 in
/-- The stretch before the fourth region gathers the second layer's product at the edge sources, scales each row by
    the edge's weight and scatter-adds at the targets: the reference's second aggregate, the weights being the first
    layer's (`norm_again`). -/
theorem W8_agg : W8 m ρ c (Proc.devRef .tc main_v59)
    = val_main_v84 (F := Ideal) (A0 m c) (A1 m c) (A3 m c) (A4 m c) (A5 m c) := by
  dsimp only [W8, hostOps3]
  after_results_simp
  rw [Cert.Bridge.FoldA.W7_row m ρ c, Cert.Bridge.FoldA.W7_col m ρ c, Cert.Bridge.FoldA.W7_norm m ρ c, Cert.Bridge.FoldA.W7_h1 m ρ c]
  unfold val_main_v84 Cert.ReferenceIdeal.Read.val_main_v82 Cert.ReferenceIdeal.Read.val_main_cst_19 Cert.ReferenceIdeal.Read.val_main_v83
    Cert.ReferenceIdeal.Read.val_main_v81 Cert.ReferenceIdeal.Read.val_main_v78 Cert.ReferenceIdeal.Read.val_main_v77
    Cert.ReferenceIdeal.Read.val_main_v76 Cert.ReferenceIdeal.Read.val_main_v73 Cert.ReferenceIdeal.Read.val_main_v72
    Cert.ReferenceIdeal.Read.val_main_c_17 Cert.ReferenceIdeal.Read.val_main_v75 Cert.ReferenceIdeal.Read.val_main_v74
    Cert.ReferenceIdeal.Read.val_main_c_18 Cert.ReferenceIdeal.Read.val_main_v80 Cert.ReferenceIdeal.Read.val_main_v79
  rw [norm_again]
  rfl

set_option maxHeartbeats 1000000 in
/-- The second bias enters the fourth region as one row: entry `(0, q)` is the bias at `q`. -/
theorem W8_bias (q : Fin 64) : V8 m ρ c main_v60 (ix2 (0 : Fin 1) q) = A6 m c (ix1 q) := by
  dsimp only [V8, W8, hostOps3]
  after_results_simp
  rw [Cert.Bridge.FoldA.W7_arg6 m ρ c]
  exact shapeCast_a_1a_apply _ _ 0 q

/-! ## The fourth region's exit and the fifth region's entry -/

/-- The fourth region writes the second layer's activations. -/
theorem W9_h2 : W9 m ρ c (Proc.devRef .tc main_v61)
    = val_main_v88 (F := Ideal) (A0 m c) (A1 m c) (A3 m c) (A4 m c) (A5 m c) (A6 m c) :=
  (W9_arr m ρ c 2).trans (Cert.Bridge.Region3.region3 (V8 m ρ) c (A0 m c) (A1 m c) (A3 m c) (A4 m c) (A5 m c) (A6 m c)
    (W8_agg m ρ c) (W8_bias m ρ c))

/-- The graph ids are as launched when the fourth region is left. -/
theorem W9_arg2 : W9 m ρ c (Proc.devRef .tc main_arg2) = A2 m c :=
  calc W9 m ρ c (Proc.devRef .tc main_arg2)
    _ = W8 m ρ c (Proc.devRef .tc main_arg2) := W9_of_ne m ρ c main_arg2 (by decide)
    _ = W7 m ρ c (Proc.devRef .tc main_arg2) := by carry_through hostOps3
    _ = A2 m c := Cert.Bridge.FoldA.W7_arg2 m ρ c

set_option maxHeartbeats 1000000 in
/-- The graph ids enter the fifth region as one column: entry `(e, 0)` is the id of node `e`. -/
theorem W10_ids (e : Fin 100000) : V10 m ρ c main_v62 (ix2 e (0 : Fin 1)) = A2 m c (ix1 e) := by
  dsimp only [V10, W10, hostOps4]
  after_results_simp
  rw [W9_arg2 m ρ c]
  exact shapeCast_a_a1_apply _ _ e 0

/-- The one reshape before the fifth region leaves the activations alone. -/
theorem W10_h2 : V10 m ρ c main_v61
    = val_main_v88 (F := Ideal) (A0 m c) (A1 m c) (A3 m c) (A4 m c) (A5 m c) (A6 m c) := by
  refine Eq.trans ?_ (W9_h2 m ρ c)
  carry_through hostOps4

/-! ## The fifth region's exit and the last region's entry -/

/-- The fifth region writes the per-graph sums of the activations. -/
theorem W11_pool : W11 m ρ c (Proc.devRef .tc main_v63)
    = val_main_v91 (F := Ideal) (A0 m c) (A1 m c) (A2 m c) (A3 m c) (A4 m c) (A5 m c) (A6 m c) :=
  (W11_arr m ρ c 2).trans (Cert.Bridge.Region4.region4 (V10 m ρ) c (A0 m c) (A1 m c) (A2 m c) (A3 m c) (A4 m c) (A5 m c) (A6 m c)
    (W10_h2 m ρ c) (W10_ids m ρ c))

/-- The graph ids are as launched when the fifth region is left. -/
theorem W11_arg2 : W11 m ρ c (Proc.devRef .tc main_arg2) = A2 m c :=
  calc W11 m ρ c (Proc.devRef .tc main_arg2)
    _ = W10 m ρ c (Proc.devRef .tc main_arg2) := W11_of_ne m ρ c main_arg2 (by decide)
    _ = W9 m ρ c (Proc.devRef .tc main_arg2) := by carry_through hostOps4
    _ = A2 m c := W9_arg2 m ρ c

/-- The classifier's weights are as launched when the fifth region is left. -/
theorem W11_arg7 : W11 m ρ c (Proc.devRef .tc main_arg7) = A7 m c :=
  calc W11 m ρ c (Proc.devRef .tc main_arg7)
    _ = W10 m ρ c (Proc.devRef .tc main_arg7) := W11_of_ne m ρ c main_arg7 (by decide)
    _ = W9 m ρ c (Proc.devRef .tc main_arg7) := by carry_through hostOps4
    _ = W8 m ρ c (Proc.devRef .tc main_arg7) := W9_of_ne m ρ c main_arg7 (by decide)
    _ = W7 m ρ c (Proc.devRef .tc main_arg7) := by carry_through hostOps3
    _ = A7 m c := Cert.Bridge.FoldA.W7_arg7 m ρ c

/-- The classifier's bias is as launched when the fifth region is left. -/
theorem W11_arg8 : W11 m ρ c (Proc.devRef .tc main_arg8) = A8 m c :=
  calc W11 m ρ c (Proc.devRef .tc main_arg8)
    _ = W10 m ρ c (Proc.devRef .tc main_arg8) := W11_of_ne m ρ c main_arg8 (by decide)
    _ = W9 m ρ c (Proc.devRef .tc main_arg8) := by carry_through hostOps4
    _ = W8 m ρ c (Proc.devRef .tc main_arg8) := W9_of_ne m ρ c main_arg8 (by decide)
    _ = W7 m ρ c (Proc.devRef .tc main_arg8) := by carry_through hostOps3
    _ = A8 m c := Cert.Bridge.FoldA.W7_arg8 m ρ c

/-- The last stretch leaves the per-graph sums alone. -/
theorem W12_pool : V12 m ρ c main_v63
    = val_main_v91 (F := Ideal) (A0 m c) (A1 m c) (A2 m c) (A3 m c) (A4 m c) (A5 m c) (A6 m c) := by
  refine Eq.trans ?_ (W11_pool m ρ c)
  carry_through hostOps5

set_option maxHeartbeats 1000000 in
/-- The last stretch counts each graph's nodes by the reference's own scatter-add of ones at the graph ids, and hands
    the counts to the last region as one column: entry `(g, 0)` is the count of graph `g`. -/
theorem W12_counts (g : Fin 128) : V12 m ρ c main_v68 (ix2 g (0 : Fin 1)) = val_main_v95 (F := Ideal) (A2 m c) (ix1 g) := by
  dsimp only [V12, W12, hostOps5]
  after_results_simp
  rw [W11_arg2 m ρ c]
  refine (shapeCast_a_a1_apply _ _ g 0).trans ?_
  unfold val_main_v95 Cert.ReferenceIdeal.Read.val_main_v93 Cert.ReferenceIdeal.Read.val_main_v94 Cert.ReferenceIdeal.Read.val_main_v92
    Cert.ReferenceIdeal.Read.val_main_cst_22 Cert.ReferenceIdeal.Read.val_main_cst_21
  rfl

/-- The last stretch leaves the classifier's weights alone. -/
theorem W12_arg7 : V12 m ρ c main_arg7 = A7 m c := by
  refine Eq.trans ?_ (W11_arg7 m ρ c)
  carry_through hostOps5

set_option maxHeartbeats 1000000 in
/-- The classifier's bias enters the last region as one row: entry `(0, j)` is the bias at `j`. -/
theorem W12_bias (j : Fin 10) : V12 m ρ c main_v69 (ix2 (0 : Fin 1) j) = A8 m c (ix1 j) := by
  dsimp only [V12, W12, hostOps5]
  after_results_simp
  rw [W11_arg8 m ρ c]
  exact shapeCast_a_1a_apply _ _ 0 j

/-- What the result buffer holds at the last boundary of the run is the reference's result, as one function of the
    nine argument arrays as launched. -/
theorem result_eq : W13 m ρ c (Proc.devRef .tc main_v70)
    = val_main_v115 (F := Ideal) (A0 m c) (A1 m c) (A2 m c) (A3 m c) (A4 m c) (A5 m c) (A6 m c) (A7 m c) (A8 m c) :=
  (W13_arr m ρ c 4).trans (Cert.Bridge.Region5.region5 (V12 m ρ) c (A0 m c) (A1 m c) (A2 m c) (A3 m c) (A4 m c) (A5 m c)
    (A6 m c) (A7 m c) (A8 m c) (W12_pool m ρ c) (W12_counts m ρ c) (W12_arg7 m ρ c) (W12_bias m ρ c))

end Cert.Bridge.FoldB

end
-- ==== Proof.lean ====
/-
  A two-layer graph convolution, mean-pooled per graph and classified by a softmax: the Pallas program against its jnp
  reference, as functions of the nine argument arrays over the extended reals.

  Both programs build the same edge lists (the given edges with one self loop per node appended), the same degree by a
  segment sum of ones over the targets, and the same edge weight dinv[row] * dinv[col] with dinv = deg^(-1/2) where
  deg > 0 and 0 elsewhere. Each layer is h @ W, gathered at the sources, scaled by the edge weight, summed per target,
  plus a bias, rectified. The kernel computes each product X @ W block of 10000 rows by block of 10000 rows; row i of the
  product depends on row i of X only, so the blocks laid end to end are the whole product, and a narrowing of the factors to
  a shorter float format is the identity at this instance. The bias and the maximum with zero are entrywise, the bias row
  shared by all rows. The pooled sums the kernel accumulates over ten blocks of nodes are, at graph g and feature c, the sum
  over the nodes n of [batch n = g] * h(n, c): a summand whose indicator is 0 is 0 whatever h holds (0 * x = 0 on the
  extended reals, infinities included) and one whose indicator is 1 is h(n, c), so this is the sum of h(n, c) over the nodes
  whose graph id, read as a signed word, is g: the reference's segment sum, in which an id outside [0, 128) lands on no
  graph, as an indicator that never fires does. Addition of extended reals is commutative and associative, so the order
  and grouping of that sum do not matter. The last region divides by max(count, 1), multiplies by the last weight matrix,
  adds the last bias and normalises exp(x - max) by its row sum: the reference's operations, entry by entry.
  No step uses that the inputs are finite.

  The kernel's run is the launch over its thirteen segments; the result buffer's final contents are read back through the
  boundaries of the run, one host stretch or one region at a time (FoldA, FoldB over Region0 … Region5), and the reference's
  run is its operations' composed term (RefRun, RefRead).
-/
import proofs.«409668_j5222680232280_2_alg».proof.Defs
import proofs.«409668_j5222680232280_2_alg».proof.Proof.Gen.Kernel
import proofs.«409668_j5222680232280_2_alg».proof.Proof.Gen.Kernel.Frame
import proofs.«409668_j5222680232280_2_alg».proof.Proof.Gen.KernelIdeal
import proofs.«409668_j5222680232280_2_alg».proof.Proof.Gen.KernelIdeal.Frame
import proofs.«409668_j5222680232280_2_alg».proof.Proof.Gen.ReferenceIdeal
import proofs.«409668_j5222680232280_2_alg».proof.Proof.Gen.Pre_finite_inputs
import proofs.«409668_j5222680232280_2_alg».proof.Proof.RefRead
import proofs.«409668_j5222680232280_2_alg».proof.Proof.KRun
import proofs.«409668_j5222680232280_2_alg».proof.Proof.FoldB
import Idealize.ShloMosaic.Adequacy
import Idealize.ShloMosaic.Init

noncomputable section

namespace Cert.Proof

open Idealize.ShloMosaic Idealize.SL.Sem

/-- The word-level program runs and leaves its arguments as launched. -/
theorem frame_p : Cert.frame_Kernel := fun m ρ _ => Cert.Kernel.Gen.frame m ρ
/-- So does its reading over the extended reals. -/
theorem frame_pi : Cert.frame_KernelIdeal := fun m ρ _ => Cert.KernelIdeal.Gen.frame m ρ
/-- The reference runs and leaves its arguments as launched: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the nine arguments, both programs end with one and the same result array: what the
    kernel's result buffer holds at the last boundary of its run is the reference's composed term of the arguments. -/
theorem algebraic : Cert.algebraic_KernelIdeal_ReferenceIdeal := by
  intro m ρ m' ρ' _ hagree
  refine ⟨fun c => Cert.KernelIdeal.Gen.W13 m ρ c (Proc.devRef .tc Cert.KernelIdeal.main_v70),
    Cert.KernelIdeal.Launched.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v115_eq, h0, h1, h2, h3, h4, h5, h6, h7, h8]
  exact (Cert.Bridge.FoldB.result_eq m ρ c).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
